-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768 : Shape := ⟨1, ![32768]⟩
abbrev S10000x1024 : Shape := ⟨2, ![10000, 1024]⟩
abbrev S1024x1024 : Shape := ⟨2, ![1024, 1024]⟩
abbrev S50000x256 : Shape := ⟨2, ![50000, 256]⟩
abbrev S1024x256 : Shape := ⟨2, ![1024, 256]⟩
abbrev S130000x64 : Shape := ⟨2, ![130000, 64]⟩
abbrev S1024x64 : Shape := ⟨2, ![1024, 64]⟩
abbrev S60000x16 : Shape := ⟨2, ![60000, 16]⟩
abbrev S1024x16 : Shape := ⟨2, ![1024, 16]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S50000x256 : S_.BroadcastsInDim S50000x256 (![] : Fin 0 → Fin S50000x256.rank)
  reducesTo_S50000x256_S_d0_1 : S50000x256.ReducesTo [0, 1] S_
  bcast_S_S1024x256 : S_.BroadcastsInDim S1024x256 (![] : Fin 0 → Fin S1024x256.rank)
  reducesTo_S1024x256_S_d0_1 : S1024x256.ReducesTo [0, 1] S_
  bcast_S_S130000x64 : S_.BroadcastsInDim S130000x64 (![] : Fin 0 → Fin S130000x64.rank)
  reducesTo_S130000x64_S_d0_1 : S130000x64.ReducesTo [0, 1] S_
  bcast_S_S1024x64 : S_.BroadcastsInDim S1024x64 (![] : Fin 0 → Fin S1024x64.rank)
  reducesTo_S1024x64_S_d0_1 : S1024x64.ReducesTo [0, 1] S_
  bcast_S_S60000x16 : S_.BroadcastsInDim S60000x16 (![] : Fin 0 → Fin S60000x16.rank)
  reducesTo_S60000x16_S_d0_1 : S60000x16.ReducesTo [0, 1] S_
  bcast_S_S1024x16 : S_.BroadcastsInDim S1024x16 (![] : Fin 0 → Fin S1024x16.rank)
  reducesTo_S1024x16_S_d0_1 : S1024x16.ReducesTo [0, 1] S_
  bcast_S_S32768 : S_.BroadcastsInDim S32768 (![] : Fin 0 → Fin S32768.rank)
  reducesTo_S32768_S_d0 : S32768.ReducesTo [0] S_

variable [Facts]

def fn_part2 {F : FTy → Type} [FloatOps F] (main_arg0 : IVec S32768 32) (main_arg8 : FVec F S1024x16 .f32) (main_v33 : IVec S_ 1) : IVec S_ 1 :=
  let main_v34 : FVec F S1024x16 .f32 := Host.absf main_arg8
  let main_cst_12 : FVec F S_ .f32 := constant S_ .f32 0x7F800000#32
  let main_v35 : FVec F S1024x16 .f32 := broadcastInDim S1024x16 ![] bcast_S_S1024x16 main_cst_12
  let main_v36 : IVec S1024x16 1 := cmpf .olt main_v34 main_v35
  let main_c_13 : IVec S_ 1 := constantI S_ 1 1#1
  let main_v37 : IVec S_ 1 := (fun x v => Host.reduce IntOp.andi x v reducesTo_S1024x16_S_d0_1 h_S_) main_v36 main_c_13
  let main_v38 : IVec S_ 1 := andi main_v33 main_v37
  let main_c_14 : IVec S_ 32 := constantI S_ 32 0#32
  let main_v39 : IVec S32768 32 := broadcastInDim S32768 ![] bcast_S_S32768 main_c_14
  let main_v40 : IVec S32768 1 := cmpi .sge main_arg0 main_v39
  let main_c_15 : IVec S_ 32 := constantI S_ 32 250000#32
  let main_v41 : IVec S32768 32 := broadcastInDim S32768 ![] bcast_S_S32768 main_c_15
  let main_v42 : IVec S32768 1 := cmpi .slt main_arg0 main_v41
  let main_v43 : IVec S32768 1 := andi main_v40 main_v42
  let main_c_16 : IVec S_ 1 := constantI S_ 1 1#1
  let main_v44 : IVec S_ 1 := (fun x v => Host.reduce IntOp.andi x v reducesTo_S32768_S_d0 h_S_) main_v43 main_c_16
  let main_v45 : IVec S_ 1 := andi main_v38 main_v44
  main_v45

def fn_part1 {F : FTy → Type} [FloatOps F] (main_arg0 : IVec S32768 32) (main_arg5 : FVec F S130000x64 .f32) (main_arg6 : FVec F S1024x64 .f32) (main_arg7 : FVec F S60000x16 .f32) (main_arg8 : FVec F S1024x16 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S130000x64 .f32 := Host.absf main_arg5
  let main_cst_6 : FVec F S_ .f32 := constant S_ .f32 0x7F800000#32
  let main_v20 : FVec F S130000x64 .f32 := broadcastInDim S130000x64 ![] bcast_S_S130000x64 main_cst_6
  let main_v21 : IVec S130000x64 1 := cmpf .olt main_v19 main_v20
  let main_c_7 : IVec S_ 1 := constantI S_ 1 1#1
  let main_v22 : IVec S_ 1 := (fun x v => Host.reduce IntOp.andi x v reducesTo_S130000x64_S_d0_1 h_S_) main_v21 main_c_7
  let main_v23 : IVec S_ 1 := andi main_v18 main_v22
  let main_v24 : FVec F S1024x64 .f32 := Host.absf main_arg6
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S60000x16 .f32 := Host.absf main_arg7
  let main_cst_10 : FVec F S_ .f32 := constant S_ .f32 0x7F800000#32
  let main_v30 : FVec F S60000x16 .f32 := broadcastInDim S60000x16 ![] bcast_S_S60000x16 main_cst_10
  let main_v31 : IVec S60000x16 1 := cmpf .olt main_v29 main_v30
  let main_c_11 : IVec S_ 1 := constantI S_ 1 1#1
  let main_v32 : IVec S_ 1 := (fun x v => Host.reduce IntOp.andi x v reducesTo_S60000x16_S_d0_1 h_S_) main_v31 main_c_11
  let main_v33 : IVec S_ 1 := andi main_v28 main_v32
  fn_part2 (F := F) main_arg0 main_arg8 main_v33

def fn {F : FTy → Type} [FloatOps F] (main_arg0 : IVec S32768 32) (main_arg1 : FVec F S10000x1024 .f32) (main_arg2 : FVec F S1024x1024 .f32) (main_arg3 : FVec F S50000x256 .f32) (main_arg4 : FVec F S1024x256 .f32) (main_arg5 : FVec F S130000x64 .f32) (main_arg6 : FVec F S1024x64 .f32) (main_arg7 : FVec F S60000x16 .f32) (main_arg8 : FVec F S1024x16 .f32) : IVec S_ 1 :=
  let main_v0 : FVec F S10000x1024 .f32 := Host.absf main_arg1
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S50000x256 .f32 := Host.absf main_arg3
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S1024x256 .f32 := Host.absf main_arg4
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg0 main_arg5 main_arg6 main_arg7 main_arg8 main_v13 main_v16
-- ==== Kernel.lean ====
abbrev S32768 : Shape := ⟨1, ![32768]⟩
abbrev S10000x1024 : Shape := ⟨2, ![10000, 1024]⟩
abbrev S1024x1024 : Shape := ⟨2, ![1024, 1024]⟩
abbrev S50000x256 : Shape := ⟨2, ![50000, 256]⟩
abbrev S1024x256 : Shape := ⟨2, ![1024, 256]⟩
abbrev S130000x64 : Shape := ⟨2, ![130000, 64]⟩
abbrev S1024x64 : Shape := ⟨2, ![1024, 64]⟩
abbrev S60000x16 : Shape := ⟨2, ![60000, 16]⟩
abbrev S1024x16 : Shape := ⟨2, ![1024, 16]⟩
abbrev S_ : Shape := ⟨0, ![]⟩
abbrev S256x1024 : Shape := ⟨2, ![256, 1024]⟩
abbrev S64x1024 : Shape := ⟨2, ![64, 1024]⟩
abbrev S16x1024 : Shape := ⟨2, ![16, 1024]⟩
abbrev S10000x1x1024 : Shape := ⟨3, ![10000, 1, 1024]⟩
abbrev S50000x1x256 : Shape := ⟨3, ![50000, 1, 256]⟩
abbrev S130000x1x64 : Shape := ⟨3, ![130000, 1, 64]⟩
abbrev S60000x1x16 : Shape := ⟨3, ![60000, 1, 16]⟩
abbrev S32768x1x1024 : Shape := ⟨3, ![32768, 1, 1024]⟩
abbrev S1x1x1024 : Shape := ⟨3, ![1, 1, 1024]⟩
abbrev S1 : Shape := ⟨1, ![1]⟩
abbrev S1x1x256 : Shape := ⟨3, ![1, 1, 256]⟩
abbrev S1x1x64 : Shape := ⟨3, ![1, 1, 64]⟩
abbrev S1x1x16 : Shape := ⟨3, ![1, 1, 16]⟩
abbrev S1x1024 : Shape := ⟨2, ![1, 1024]⟩
abbrev S1x256 : Shape := ⟨2, ![1, 256]⟩
abbrev S1x64 : Shape := ⟨2, ![1, 64]⟩
abbrev S1x16 : Shape := ⟨2, ![1, 16]⟩
abbrev S32768x1024 : Shape := ⟨2, ![32768, 1024]⟩

abbrev nBuf : Space → Nat
  | .hbm => 104
  | .vmem => 14
  | .smem => 5
  | _ => 0

abbrev bufTy : (tb : Table) → Fin (tcTables nBuf tb) → BufTy
  | .hbm, ⟨0, _⟩ => ⟨S32768, .i32⟩
  | .hbm, ⟨1, _⟩ => ⟨S10000x1024, .f32⟩
  | .hbm, ⟨2, _⟩ => ⟨S1024x1024, .f32⟩
  | .hbm, ⟨3, _⟩ => ⟨S50000x256, .f32⟩
  | .hbm, ⟨4, _⟩ => ⟨S1024x256, .f32⟩
  | .hbm, ⟨5, _⟩ => ⟨S130000x64, .f32⟩
  | .hbm, ⟨6, _⟩ => ⟨S1024x64, .f32⟩
  | .hbm, ⟨7, _⟩ => ⟨S60000x16, .f32⟩
  | .hbm, ⟨8, _⟩ => ⟨S1024x16, .f32⟩
  | .hbm, ⟨9, _⟩ => ⟨S_, .i32⟩
  | .hbm, ⟨10, _⟩ => ⟨S32768, .i32⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S32768, .i1⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S32768, .i32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S_, .i32⟩
  | .hbm, ⟨32, _⟩ => ⟨S32768, .i32⟩
  | .hbm, ⟨33, _⟩ => ⟨S32768, .i1⟩
  | .hbm, ⟨34, _⟩ => ⟨S_, .i32⟩
  | .hbm, ⟨35, _⟩ => ⟨S32768, .i32⟩
  | .hbm, ⟨36, _⟩ => ⟨S32768, .i1⟩
  | .hbm, ⟨37, _⟩ => ⟨S32768, .i1⟩
  | .hbm, ⟨38, _⟩ => ⟨S_, .i32⟩
  | .hbm, ⟨39, _⟩ => ⟨S32768, .i32⟩
  | .hbm, ⟨40, _⟩ => ⟨S32768, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S32768, .i32⟩
  | .hbm, ⟨45, _⟩ => ⟨S32768, .i32⟩
  | .hbm, ⟨46, _⟩ => ⟨S_, .i32⟩
  | .hbm, ⟨47, _⟩ => ⟨S32768, .i32⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S_, .i32⟩
  | .hbm, ⟨52, _⟩ => ⟨S32768, .i32⟩
  | .hbm, ⟨53, _⟩ => ⟨S32768, .i1⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S32768, .i1⟩
  | .hbm, ⟨58, _⟩ => ⟨S_, .i32⟩
  | .hbm, ⟨59, _⟩ => ⟨S32768, .i32⟩
  | .hbm, ⟨60, _⟩ => ⟨S32768, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S32768, .i32⟩
  | .hbm, ⟨65, _⟩ => ⟨S32768, .i32⟩
  | .hbm, ⟨66, _⟩ => ⟨S_, .i32⟩
  | .hbm, ⟨67, _⟩ => ⟨S32768, .i32⟩
  | .hbm, ⟨68, _⟩ => ⟨S_, .i32⟩
  | .hbm, ⟨69, _⟩ => ⟨S32768, .i32⟩
  | .hbm, ⟨70, _⟩ => ⟨S32768, .i32⟩
  | .hbm, ⟨71, _⟩ => ⟨S_, .i32⟩
  | .hbm, ⟨72, _⟩ => ⟨S32768, .i32⟩
  | .hbm, ⟨73, _⟩ => ⟨S32768, .i1⟩
  | .hbm, ⟨74, _⟩ => ⟨S_, .i32⟩
  | .hbm, ⟨75, _⟩ => ⟨S32768, .i32⟩
  | .hbm, ⟨76, _⟩ => ⟨S32768, .i1⟩
  | .hbm, ⟨77, _⟩ => ⟨S32768, .i1⟩
  | .hbm, ⟨78, _⟩ => ⟨S_, .i32⟩
  | .hbm, ⟨79, _⟩ => ⟨S32768, .i32⟩
  | .hbm, ⟨80, _⟩ => ⟨S32768, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S32768, .i32⟩
  | .hbm, ⟨85, _⟩ => ⟨S32768, .i32⟩
  | .hbm, ⟨86, _⟩ => ⟨S_, .i32⟩
  | .hbm, ⟨87, _⟩ => ⟨S32768, .i32⟩
  | .hbm, ⟨88, _⟩ => ⟨S_, .i32⟩
  | .hbm, ⟨89, _⟩ => ⟨S32768, .i32⟩
  | .hbm, ⟨90, _⟩ => ⟨S1024x1024, .f32⟩
  | .hbm, ⟨91, _⟩ => ⟨S1024x1024, .bf16⟩
  | .hbm, ⟨92, _⟩ => ⟨S256x1024, .f32⟩
  | .hbm, ⟨93, _⟩ => ⟨S256x1024, .bf16⟩
  | .hbm, ⟨94, _⟩ => ⟨S64x1024, .f32⟩
  | .hbm, ⟨95, _⟩ => ⟨S64x1024, .bf16⟩
  | .hbm, ⟨96, _⟩ => ⟨S16x1024, .f32⟩
  | .hbm, ⟨97, _⟩ => ⟨S16x1024, .bf16⟩
  | .hbm, ⟨98, _⟩ => ⟨S10000x1x1024, .f32⟩
  | .hbm, ⟨99, _⟩ => ⟨S50000x1x256, .f32⟩
  | .hbm, ⟨100, _⟩ => ⟨S130000x1x64, .f32⟩
  | .hbm, ⟨101, _⟩ => ⟨S60000x1x16, .f32⟩
  | .hbm, ⟨102, _⟩ => ⟨S32768x1x1024, .f32⟩
  | .hbm, ⟨103, _⟩ => ⟨S32768x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x256, .f32⟩
  | .local _ .vmem, ⟨3, _⟩ => ⟨S1x1x256, .f32⟩
  | .local _ .vmem, ⟨4, _⟩ => ⟨S1x1x64, .f32⟩
  | .local _ .vmem, ⟨5, _⟩ => ⟨S1x1x64, .f32⟩
  | .local _ .vmem, ⟨6, _⟩ => ⟨S1x1x16, .f32⟩
  | .local _ .vmem, ⟨7, _⟩ => ⟨S1x1x16, .f32⟩
  | .local _ .vmem, ⟨8, _⟩ => ⟨S1024x1024, .bf16⟩
  | .local _ .vmem, ⟨9, _⟩ => ⟨S256x1024, .bf16⟩
  | .local _ .vmem, ⟨10, _⟩ => ⟨S64x1024, .bf16⟩
  | .local _ .vmem, ⟨11, _⟩ => ⟨S16x1024, .bf16⟩
  | .local _ .vmem, ⟨12, _⟩ => ⟨S1x1x1024, .f32⟩
  | .local _ .vmem, ⟨13, _⟩ => ⟨S1x1x1024, .f32⟩
  | .local _ .smem, ⟨0, _⟩ => ⟨S32768, .i32⟩
  | .local _ .smem, ⟨1, _⟩ => ⟨S32768, .i32⟩
  | .local _ .smem, ⟨2, _⟩ => ⟨S32768, .i32⟩
  | .local _ .smem, ⟨3, _⟩ => ⟨S32768, .i32⟩
  | .local _ .smem, ⟨4, _⟩ => ⟨S32768, .i32⟩
  | _, _ => ⟨S32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_c_0 : Ref sig .tc := ⟨.hbm, 11, rfl⟩
abbrev main_v1 : Ref sig .tc := ⟨.hbm, 12, rfl⟩
abbrev main_v2 : Ref sig .tc := ⟨.hbm, 13, rfl⟩
abbrev main_c_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_c_5 : Ref sig .tc := ⟨.hbm, 28, rfl⟩
abbrev main_call1_v0 : Ref sig .tc := ⟨.hbm, 29, rfl⟩
abbrev main_v9 : Ref sig .tc := ⟨.hbm, 30, rfl⟩
abbrev main_c_6 : Ref sig .tc := ⟨.hbm, 31, rfl⟩
abbrev main_v10 : Ref sig .tc := ⟨.hbm, 32, rfl⟩
abbrev main_v11 : Ref sig .tc := ⟨.hbm, 33, rfl⟩
abbrev main_c_7 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_8 : Ref sig .tc := ⟨.hbm, 38, rfl⟩
abbrev main_v15 : Ref sig .tc := ⟨.hbm, 39, rfl⟩
abbrev main_v16 : Ref sig .tc := ⟨.hbm, 40, rfl⟩
abbrev main_c_9 : Ref sig .tc := ⟨.hbm, 41, rfl⟩
abbrev main_c_10 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_c_11 : Ref sig .tc := ⟨.hbm, 48, rfl⟩
abbrev main_call3_v0 : Ref sig .tc := ⟨.hbm, 49, rfl⟩
abbrev main_v18 : Ref sig .tc := ⟨.hbm, 50, rfl⟩
abbrev main_c_12 : Ref sig .tc := ⟨.hbm, 51, rfl⟩
abbrev main_v19 : Ref sig .tc := ⟨.hbm, 52, rfl⟩
abbrev main_v20 : Ref sig .tc := ⟨.hbm, 53, rfl⟩
abbrev main_c_13 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_c_14 : Ref sig .tc := ⟨.hbm, 58, rfl⟩
abbrev main_v24 : Ref sig .tc := ⟨.hbm, 59, rfl⟩
abbrev main_v25 : Ref sig .tc := ⟨.hbm, 60, rfl⟩
abbrev main_c_15 : Ref sig .tc := ⟨.hbm, 61, rfl⟩
abbrev main_c_16 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_c_17 : Ref sig .tc := ⟨.hbm, 68, rfl⟩
abbrev main_call5_v0 : Ref sig .tc := ⟨.hbm, 69, rfl⟩
abbrev main_v27 : Ref sig .tc := ⟨.hbm, 70, rfl⟩
abbrev main_c_18 : Ref sig .tc := ⟨.hbm, 71, rfl⟩
abbrev main_v28 : Ref sig .tc := ⟨.hbm, 72, rfl⟩
abbrev main_v29 : Ref sig .tc := ⟨.hbm, 73, rfl⟩
abbrev main_c_19 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_c_20 : Ref sig .tc := ⟨.hbm, 78, rfl⟩
abbrev main_v33 : Ref sig .tc := ⟨.hbm, 79, rfl⟩
abbrev main_v34 : Ref sig .tc := ⟨.hbm, 80, rfl⟩
abbrev main_c_21 : Ref sig .tc := ⟨.hbm, 81, rfl⟩
abbrev main_c_22 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_c_23 : Ref sig .tc := ⟨.hbm, 88, rfl⟩
abbrev main_call7_v0 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v8 : Ref sig .tc := ⟨.smem, 0, rfl⟩
abbrev main_v17 : Ref sig .tc := ⟨.smem, 1, rfl⟩
abbrev main_v26 : Ref sig .tc := ⟨.smem, 2, rfl⟩
abbrev main_v35 : Ref sig .tc := ⟨.smem, 3, rfl⟩
abbrev main_v36 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32768], ![false]⟩

abbrev pre0 : Pipeline.Prefetch sig := ⟨5, ![main_v8.idx, main_v17.idx, main_v26.idx, main_v35.idx, main_v36.idx], fun | 0 => main_v8.names | 1 => main_v17.names | 2 => main_v26.names | 3 => main_v35.names | 4 => main_v36.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S32768.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S32768) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S32768 : S_.BroadcastsInDim S32768 (![] : Fin 0 → Fin S32768.rank)
  transposes_S1024x1024_S1024x1024_1_0 : S1024x1024.Transposes [1, 0] S1024x1024
  bitsLt_bf16_f32 : FTy.bits .bf16 < FTy.bits .f32
  transposes_S1024x256_S256x1024_1_0 : S1024x256.Transposes [1, 0] S256x1024
  transposes_S1024x64_S64x1024_1_0 : S1024x64.Transposes [1, 0] S64x1024
  transposes_S1024x16_S16x1024_1_0 : S1024x16.Transposes [1, 0] S16x1024
  shapeCasts_S10000x1024_S10000x1x1024 : S10000x1024.ShapeCasts S10000x1x1024
  shapeCasts_S50000x256_S50000x1x256 : S50000x256.ShapeCasts S50000x1x256
  shapeCasts_S130000x64_S130000x1x64 : S130000x64.ShapeCasts S130000x1x64
  shapeCasts_S60000x16_S60000x1x16 : S60000x16.ShapeCasts S60000x1x16
  numel1_S1 : S1.numel = 1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  inb_S1x1x16_S1x1x16_0_0_0 : ∀ a, (![0, 0, 0] : Fin 3 → Nat) a + S1x1x16.size a ≤ S1x1x16.size a
  h_S1x1x16 : 0 < S1x1x16.numel
  shapeCasts_S1x1x16_S1x16 : S1x1x16.ShapeCasts S1x16
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S1x1024_S1x1x1024 : S1x1024.ShapeCasts S1x1x1024
  shapeCasts_S32768x1x1024_S32768x1024 : S32768x1x1024.ShapeCasts S32768x1024
  dot_S1x1024_S1024x1024_S1x1024_1_0_0_1_n_n_wf : DotDims.WF S1x1024 S1024x1024 S1x1024 [1] [0] [0] [1] [] []
  dot_S1x256_S256x1024_S1x1024_1_0_0_1_n_n_wf : DotDims.WF S1x256 S256x1024 S1x1024 [1] [0] [0] [1] [] []
  dot_S1x64_S64x1024_S1x1024_1_0_0_1_n_n_wf : DotDims.WF S1x64 S64x1024 S1x1024 [1] [0] [0] [1] [] []
  dot_S1x16_S16x1024_S1x1024_1_0_0_1_n_n_wf : DotDims.WF S1x16 S16x1024 S1x1024 [1] [0] [0] [1] [] []
  hrank0 : 0 < grid0.rank
  k0_off1_inb : ∀ i : grid0.Coords, ∀ a, (k0_off1 i) a + S1.size a ≤ S32768.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .bf16 = 32 ∨ (Rect.block (s := S256x1024) S256x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x1024.size a
  hwx0_6 : ∀ i : grid0.Coords, EltTy.bits .bf16 = 32 ∨ (Rect.block (s := S64x1024) S64x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1024.size a ≤ S16x1024.size a
  hwx0_7 : ∀ i : grid0.Coords, EltTy.bits .bf16 = 32 ∨ (Rect.block (s := S16x1024) S16x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S32768x1x1024.size a
  hwx0_8 : ∀ i : grid0.Coords, EltTy.bits .f32 = 32 ∨ (Rect.block (s := S32768x1x1024) S1x1x1024.size (cc0_transform_8 i) (hinb0_8 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S1x256_S256x1024_S1x1024_1_0_0_1_n_n : DotDims S1x256 S256x1024 S1x1024 where
  lhsContracting := [1]
  rhsContracting := [0]
  lhsNonContracting := [0]
  rhsNonContracting := [1]
  lhsBatch := []
  rhsBatch := []
  wf := dot_S1x256_S256x1024_S1x1024_1_0_0_1_n_n_wf
def dot_S1x64_S64x1024_S1x1024_1_0_0_1_n_n : DotDims S1x64 S64x1024 S1x1024 where
  lhsContracting := [1]
  rhsContracting := [0]
  lhsNonContracting := [0]
  rhsNonContracting := [1]
  lhsBatch := []
  rhsBatch := []
  wf := dot_S1x64_S64x1024_S1x1024_1_0_0_1_n_n_wf
def dot_S1x16_S16x1024_S1x1024_1_0_0_1_n_n : DotDims S1x16 S16x1024 S1x1024 where
  lhsContracting := [1]
  rhsContracting := [0]
  lhsNonContracting := [0]
  rhsNonContracting := [1]
  lhsBatch := []
  rhsBatch := []
  wf := dot_S1x16_S16x1024_S1x1024_1_0_0_1_n_n_wf

abbrev spec0_0 : Pipeline.WinSpec sig grid0.rank :=
  Pipeline.WinSpec.ofSpec (Memref.whole main_v45) S1x1x1024.size reads0_0 false false 2 stage0_0 sem0_0 nbuf0_0 hstage0_0

abbrev spec0_1 : Pipeline.WinSpec sig grid0.rank :=
  Pipeline.WinSpec.ofSpec (Memref.whole main_v46) S1x1x256.size reads0_1 false false 2 stage0_1 sem0_1 nbuf0_1 hstage0_1

abbrev spec0_2 : Pipeline.WinSpec sig grid0.rank :=
  Pipeline.WinSpec.ofSpec (Memref.whole main_v47) S1x1x64.size reads0_2 false false 2 stage0_2 sem0_2 nbuf0_2 hstage0_2

abbrev spec0_3 : Pipeline.WinSpec sig grid0.rank :=
  Pipeline.WinSpec.ofSpec (Memref.whole main_v48) S1x1x16.size reads0_3 false false 2 stage0_3 sem0_3 nbuf0_3 hstage0_3

abbrev spec0_4 : Pipeline.WinSpec sig grid0.rank :=
  Pipeline.WinSpec.ofSpec (Memref.whole main_v38) S1024x1024.size reads0_4 false true 1 stage0_4 sem0_4 nbuf0_4 hstage0_4

abbrev spec0_5 : Pipeline.WinSpec sig grid0.rank :=
  Pipeline.WinSpec.ofSpec (Memref.whole main_v40) S256x1024.size reads0_5 false true 1 stage0_5 sem0_5 nbuf0_5 hstage0_5

abbrev spec0_6 : Pipeline.WinSpec sig grid0.rank :=
  Pipeline.WinSpec.ofSpec (Memref.whole main_v42) S64x1024.size reads0_6 false true 1 stage0_6 sem0_6 nbuf0_6 hstage0_6

abbrev spec0_7 : Pipeline.WinSpec sig grid0.rank :=
  Pipeline.WinSpec.ofSpec (Memref.whole main_v44) S16x1024.size reads0_7 false true 1 stage0_7 sem0_7 nbuf0_7 hstage0_7

abbrev spec0_8 : Pipeline.WinSpec sig grid0.rank :=
  Pipeline.WinSpec.ofSpec (Memref.whole main_v49) S1x1x1024.size reads0_8 true false 2 stage0_8 sem0_8 nbuf0_8 hstage0_8

abbrev spec0 : Fin 9 → Pipeline.WinSpec sig grid0.rank := fun | 0 => spec0_0 | 1 => spec0_1 | 2 => spec0_2 | 3 => spec0_3 | 4 => spec0_4 | 5 => spec0_5 | 6 => spec0_6 | 7 => spec0_7 | 8 => spec0_8 | ⟨_ + 9, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | ⟨_ + 9, h⟩ => absurd h (Nat.not_lt.2 (Nat.le_add_left _ _))
abbrev ix0 (pf : pre0.Contents (Elt F)) : (w : Fin 9) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 | 5 => cc0_transform_5 | 6 => cc0_transform_6 | 7 => cc0_transform_7 | 8 => cc0_transform_8 | ⟨_ + 9, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 | 5 => hreads0_5 | 6 => hreads0_6 | 7 => hreads0_7 | 8 => hreads0_8 | ⟨_ + 9, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x1024.size a ≤ S10000x1x1024.size a), EltTy.bits .f32 = 32 ∨ (Rect.block (s := S10000x1x1024) S1x1x1024.size (cc0_transform_0 k0_off1_inb numel1_S1 pf i) h).WholeWords (EltTy.packing .f32)) ∧
  (∀ i : grid0.Coords, ∃ h : (∀ a, (cc0_transform_1 k0_off1_inb numel1_S1 pf i a + 1) * S1x1x256.size a ≤ S50000x1x256.size a), EltTy.bits .f32 = 32 ∨ (Rect.block (s := S50000x1x256) S1x1x256.size (cc0_transform_1 k0_off1_inb numel1_S1 pf i) h).WholeWords (EltTy.packing .f32)) ∧
  (∀ i : grid0.Coords, ∃ h : (∀ a, (cc0_transform_2 k0_off1_inb numel1_S1 pf i a + 1) * S1x1x64.size a ≤ S130000x1x64.size a), EltTy.bits .f32 = 32 ∨ (Rect.block (s := S130000x1x64) S1x1x64.size (cc0_transform_2 k0_off1_inb numel1_S1 pf i) h).WholeWords (EltTy.packing .f32)) ∧
  (∀ i : grid0.Coords, ∃ h : (∀ a, (cc0_transform_3 k0_off1_inb numel1_S1 pf i a + 1) * S1x1x16.size a ≤ S60000x1x16.size a), EltTy.bits .f32 = 32 ∨ (Rect.block (s := S60000x1x16) S1x1x16.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | 4 => hinb0_4 | 5 => hinb0_5 | 6 => hinb0_6 | 7 => hinb0_7 | 8 => hinb0_8 | ⟨_ + 9, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | 4 => hwx0_4 | 5 => hwx0_5 | 6 => hwx0_6 | 7 => hwx0_7 | 8 => hwx0_8 | ⟨_ + 9, h⟩ => absurd h (Nat.not_lt.2 (Nat.le_add_left _ _))

class Facts : Prop extends Facts₀ where
  harr0 : ∀ w, (spec0 w).arr.IsWhole

variable [Facts]
-- ==== ReferenceIdeal.lean ====
abbrev S32768 : Shape := ⟨1, ![32768]⟩
abbrev S10000x1024 : Shape := ⟨2, ![10000, 1024]⟩
abbrev S1024x1024 : Shape := ⟨2, ![1024, 1024]⟩
abbrev S50000x256 : Shape := ⟨2, ![50000, 256]⟩
abbrev S1024x256 : Shape := ⟨2, ![1024, 256]⟩
abbrev S130000x64 : Shape := ⟨2, ![130000, 64]⟩
abbrev S1024x64 : Shape := ⟨2, ![1024, 64]⟩
abbrev S60000x16 : Shape := ⟨2, ![60000, 16]⟩
abbrev S1024x16 : Shape := ⟨2, ![1024, 16]⟩
abbrev S_ : Shape := ⟨0, ![]⟩
abbrev S32768x1024 : Shape := ⟨2, ![32768, 1024]⟩
abbrev S32768x1 : Shape := ⟨2, ![32768, 1]⟩
abbrev S32768x256 : Shape := ⟨2, ![32768, 256]⟩
abbrev S32768x64 : Shape := ⟨2, ![32768, 64]⟩
abbrev S32768x16 : Shape := ⟨2, ![32768, 16]⟩

abbrev nBuf : Space → Nat
  | .hbm => 135
  | .vmem => 0
  | .smem => 0
  | _ => 0

abbrev hbmTy0_0 (i : Nat) : BufTy := match i % 128 with
  | 0 => ⟨S32768, .i32⟩
  | 1 => ⟨S10000x1024, .f32⟩
  | 2 => ⟨S1024x1024, .f32⟩
  | 3 => ⟨S50000x256, .f32⟩
  | 4 => ⟨S1024x256, .f32⟩
  | 5 => ⟨S130000x64, .f32⟩
  | 6 => ⟨S1024x64, .f32⟩
  | 7 => ⟨S60000x16, .f32⟩
  | 8 => ⟨S1024x16, .f32⟩
  | 9 => ⟨S_, .f32⟩
  | 10 => ⟨S32768x1024, .f32⟩
  | 11 => ⟨S_, .i32⟩
  | 12 => ⟨S32768, .i32⟩
  | 13 => ⟨S32768, .i1⟩
  | 14 => ⟨S_, .i32⟩
  | 15 => ⟨S32768, .i32⟩
  | 16 => ⟨S32768, .i1⟩
  | 17 => ⟨S32768, .i1⟩
  | 18 => ⟨S_, .i32⟩
  | 19 => ⟨S32768, .i32⟩
  | 20 => ⟨S32768, .i32⟩
  | 21 => ⟨S_, .i32⟩
  | 22 => ⟨S_, .i32⟩
  | 23 => ⟨S_, .i32⟩
  | 24 => ⟨S32768, .i32⟩
  | 25 => ⟨S32768, .i32⟩
  | 26 => ⟨S_, .i32⟩
  | 27 => ⟨S32768, .i32⟩
  | 28 => ⟨S32768, .i32⟩
  | 29 => ⟨S_, .i32⟩
  | 30 => ⟨S32768, .i32⟩
  | 31 => ⟨S32768, .i1⟩
  | 32 => ⟨S_, .i32⟩
  | 33 => ⟨S32768, .i32⟩
  | 34 => ⟨S32768, .i32⟩
  | 35 => ⟨S32768, .i32⟩
  | 36 => ⟨S32768x1, .i32⟩
  | 37 => ⟨S32768x1024, .f32⟩
  | 38 => ⟨S32768x1024, .f32⟩
  | 39 => ⟨S32768x1, .i1⟩
  | 40 => ⟨S32768x1024, .i1⟩
  | 41 => ⟨S32768x1024, .f32⟩
  | 42 => ⟨S_, .i32⟩
  | 43 => ⟨S32768, .i32⟩
  | 44 => ⟨S32768, .i1⟩
  | 45 => ⟨S_, .i32⟩
  | 46 => ⟨S32768, .i32⟩
  | 47 => ⟨S32768, .i1⟩
  | 48 => ⟨S32768, .i1⟩
  | 49 => ⟨S_, .i32⟩
  | 50 => ⟨S32768, .i32⟩
  | 51 => ⟨S32768, .i32⟩
  | 52 => ⟨S_, .i32⟩
  | 53 => ⟨S_, .i32⟩
  | 54 => ⟨S_, .i32⟩
  | 55 => ⟨S32768, .i32⟩
  | 56 => ⟨S32768, .i32⟩
  | 57 => ⟨S_, .i32⟩
  | 58 => ⟨S32768, .i32⟩
  | 59 => ⟨S32768, .i32⟩
  | 60 => ⟨S_, .i32⟩
  | 61 => ⟨S32768, .i32⟩
  | 62 => ⟨S32768, .i1⟩
  | 63 => ⟨S_, .i32⟩
  | 64 => ⟨S32768, .i32⟩
  | 65 => ⟨S32768, .i32⟩
  | 66 => ⟨S32768, .i32⟩
  | 67 => ⟨S32768x1, .i32⟩
  | 68 => ⟨S32768x256, .f32⟩
  | 69 => ⟨S32768x1024, .f32⟩
  | 70 => ⟨S32768x1, .i1⟩
  | 71 => ⟨S32768x1024, .i1⟩
  | 72 => ⟨S32768x1024, .f32⟩
  | 73 => ⟨S_, .i32⟩
  | 74 => ⟨S32768, .i32⟩
  | 75 => ⟨S32768, .i1⟩
  | 76 => ⟨S_, .i32⟩
  | 77 => ⟨S32768, .i32⟩
  | 78 => ⟨S32768, .i1⟩
  | 79 => ⟨S32768, .i1⟩
  | 80 => ⟨S_, .i32⟩
  | 81 => ⟨S32768, .i32⟩
  | 82 => ⟨S32768, .i32⟩
  | 83 => ⟨S_, .i32⟩
  | 84 => ⟨S_, .i32⟩
  | 85 => ⟨S_, .i32⟩
  | 86 => ⟨S32768, .i32⟩
  | 87 => ⟨S32768, .i32⟩
  | 88 => ⟨S_, .i32⟩
  | 89 => ⟨S32768, .i32⟩
  | 90 => ⟨S32768, .i32⟩
  | 91 => ⟨S_, .i32⟩
  | 92 => ⟨S32768, .i32⟩
  | 93 => ⟨S32768, .i1⟩
  | 94 => ⟨S_, .i32⟩
  | 95 => ⟨S32768, .i32⟩
  | 96 => ⟨S32768, .i32⟩
  | 97 => ⟨S32768, .i32⟩
  | 98 => ⟨S32768x1, .i32⟩
  | 99 => ⟨S32768x64, .f32⟩
  | 100 => ⟨S32768x1024, .f32⟩
  | 101 => ⟨S32768x1, .i1⟩
  | 102 => ⟨S32768x1024, .i1⟩
  | 103 => ⟨S32768x1024, .f32⟩
  | 104 => ⟨S_, .i32⟩
  | 105 => ⟨S32768, .i32⟩
  | 106 => ⟨S32768, .i1⟩
  | 107 => ⟨S_, .i32⟩
  | 108 => ⟨S32768, .i32⟩
  | 109 => ⟨S32768, .i1⟩
  | 110 => ⟨S32768, .i1⟩
  | 111 => ⟨S_, .i32⟩
  | 112 => ⟨S32768, .i32⟩
  | 113 => ⟨S32768, .i32⟩
  | 114 => ⟨S_, .i32⟩
  | 115 => ⟨S_, .i32⟩
  | 116 => ⟨S_, .i32⟩
  | 117 => ⟨S32768, .i32⟩
  | 118 => ⟨S32768, .i32⟩
  | 119 => ⟨S_, .i32⟩
  | 120 => ⟨S32768, .i32⟩
  | 121 => ⟨S32768, .i32⟩
  | 122 => ⟨S_, .i32⟩
  | 123 => ⟨S32768, .i32⟩
  | 124 => ⟨S32768, .i1⟩
  | 125 => ⟨S_, .i32⟩
  | 126 => ⟨S32768, .i32⟩
  | 127 => ⟨S32768, .i32⟩
  | _ => ⟨S32768, .i32⟩

abbrev hbmTy0_1 (i : Nat) : BufTy := match i % 128 with
  | 0 => ⟨S32768, .i32⟩
  | 1 => ⟨S32768x1, .i32⟩
  | 2 => ⟨S32768x16, .f32⟩
  | 3 => ⟨S32768x1024, .f32⟩
  | 4 => ⟨S32768x1, .i1⟩
  | 5 => ⟨S32768x1024, .i1⟩
  | 6 => ⟨S32768x1024, .f32⟩
  | _ => ⟨S32768, .i32⟩

abbrev hbmTy (i : Nat) : BufTy := match i / 128 with
  | 0 => hbmTy0_0 i
  | 1 => hbmTy0_1 i
  | _ => ⟨S32768, .i32⟩

abbrev bufTy : (tb : Table) → Fin (tcTables nBuf tb) → BufTy
  | .hbm, ⟨i, _⟩ => hbmTy i
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_c_3 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v8 : Ref sig .tc := ⟨.hbm, 28, rfl⟩
abbrev main_c_4 : Ref sig .tc := ⟨.hbm, 29, rfl⟩
abbrev main_v9 : Ref sig .tc := ⟨.hbm, 30, rfl⟩
abbrev main_v10 : Ref sig .tc := ⟨.hbm, 31, rfl⟩
abbrev main_c_5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_call1_v0 : Ref sig .tc := ⟨.hbm, 40, rfl⟩
abbrev main_v18 : Ref sig .tc := ⟨.hbm, 41, rfl⟩
abbrev main_c_6 : Ref sig .tc := ⟨.hbm, 42, rfl⟩
abbrev main_v19 : Ref sig .tc := ⟨.hbm, 43, rfl⟩
abbrev main_v20 : Ref sig .tc := ⟨.hbm, 44, rfl⟩
abbrev main_c_7 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_8 : Ref sig .tc := ⟨.hbm, 49, rfl⟩
abbrev main_v24 : Ref sig .tc := ⟨.hbm, 50, rfl⟩
abbrev main_v25 : Ref sig .tc := ⟨.hbm, 51, rfl⟩
abbrev main_c_9 : Ref sig .tc := ⟨.hbm, 52, rfl⟩
abbrev main_c_10 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v26 : Ref sig .tc := ⟨.hbm, 59, rfl⟩
abbrev main_c_11 : Ref sig .tc := ⟨.hbm, 60, rfl⟩
abbrev main_v27 : Ref sig .tc := ⟨.hbm, 61, rfl⟩
abbrev main_v28 : Ref sig .tc := ⟨.hbm, 62, rfl⟩
abbrev main_c_12 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_call3_v0 : Ref sig .tc := ⟨.hbm, 71, rfl⟩
abbrev main_v36 : Ref sig .tc := ⟨.hbm, 72, rfl⟩
abbrev main_c_13 : Ref sig .tc := ⟨.hbm, 73, rfl⟩
abbrev main_v37 : Ref sig .tc := ⟨.hbm, 74, rfl⟩
abbrev main_v38 : Ref sig .tc := ⟨.hbm, 75, rfl⟩
abbrev main_c_14 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_15 : Ref sig .tc := ⟨.hbm, 80, rfl⟩
abbrev main_v42 : Ref sig .tc := ⟨.hbm, 81, rfl⟩
abbrev main_v43 : Ref sig .tc := ⟨.hbm, 82, rfl⟩
abbrev main_c_16 : Ref sig .tc := ⟨.hbm, 83, rfl⟩
abbrev main_c_17 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v44 : Ref sig .tc := ⟨.hbm, 90, rfl⟩
abbrev main_c_18 : Ref sig .tc := ⟨.hbm, 91, rfl⟩
abbrev main_v45 : Ref sig .tc := ⟨.hbm, 92, rfl⟩
abbrev main_v46 : Ref sig .tc := ⟨.hbm, 93, rfl⟩
abbrev main_c_19 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_call5_v0 : Ref sig .tc := ⟨.hbm, 102, rfl⟩
abbrev main_v54 : Ref sig .tc := ⟨.hbm, 103, rfl⟩
abbrev main_c_20 : Ref sig .tc := ⟨.hbm, 104, rfl⟩
abbrev main_v55 : Ref sig .tc := ⟨.hbm, 105, rfl⟩
abbrev main_v56 : Ref sig .tc := ⟨.hbm, 106, rfl⟩
abbrev main_c_21 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_c_22 : Ref sig .tc := ⟨.hbm, 111, rfl⟩
abbrev main_v60 : Ref sig .tc := ⟨.hbm, 112, rfl⟩
abbrev main_v61 : Ref sig .tc := ⟨.hbm, 113, rfl⟩
abbrev main_c_23 : Ref sig .tc := ⟨.hbm, 114, rfl⟩
abbrev main_c_24 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_call6_v3 : Ref sig .tc := ⟨.hbm, 119, rfl⟩
abbrev main_call6_v4 : Ref sig .tc := ⟨.hbm, 120, rfl⟩
abbrev main_v62 : Ref sig .tc := ⟨.hbm, 121, rfl⟩
abbrev main_c_25 : Ref sig .tc := ⟨.hbm, 122, rfl⟩
abbrev main_v63 : Ref sig .tc := ⟨.hbm, 123, rfl⟩
abbrev main_v64 : Ref sig .tc := ⟨.hbm, 124, rfl⟩
abbrev main_c_26 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_call7_v0 : Ref sig .tc := ⟨.hbm, 133, rfl⟩
abbrev main_v72 : Ref sig .tc := ⟨.hbm, 134, rfl⟩

abbrev nD : Nat := 1
abbrev τ : Topo := Topo.v7x

variable {F : FTy → Type} [FloatOps F]

class Facts₀ : Prop where
  bcast_S_S32768x1024 : S_.BroadcastsInDim S32768x1024 (![] : Fin 0 → Fin S32768x1024.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x1024_0_1 : S32768x1.BroadcastsInDim S32768x1024 (![0, 1] : Fin 2 → Fin S32768x1024.rank)
  gather_S10000x1024_S32768x1_S32768x1024_1_0_n_n_0_1_11024_wf : GatherDims.WF S10000x1024 S32768x1 S32768x1024 [1] [0] [] [0] [] 1 ![1, 1024]
  dot_S32768x1024_S1024x1024_S32768x1024_1_1_0_0_n_n_wf : DotDims.WF S32768x1024 S1024x1024 S32768x1024 [1] [1] [0] [0] [] []
  gather_S50000x256_S32768x1_S32768x256_1_0_n_n_0_1_1256_wf : GatherDims.WF S50000x256 S32768x1 S32768x256 [1] [0] [] [0] [] 1 ![1, 256]
  dot_S32768x256_S1024x256_S32768x1024_1_1_0_0_n_n_wf : DotDims.WF S32768x256 S1024x256 S32768x1024 [1] [1] [0] [0] [] []
  gather_S130000x64_S32768x1_S32768x64_1_0_n_n_0_1_164_wf : GatherDims.WF S130000x64 S32768x1 S32768x64 [1] [0] [] [0] [] 1 ![1, 64]
  dot_S32768x64_S1024x64_S32768x1024_1_1_0_0_n_n_wf : DotDims.WF S32768x64 S1024x64 S32768x1024 [1] [1] [0] [0] [] []
  gather_S60000x16_S32768x1_S32768x16_1_0_n_n_0_1_116_wf : GatherDims.WF S60000x16 S32768x1 S32768x16 [1] [0] [] [0] [] 1 ![1, 16]
  dot_S32768x16_S1024x16_S32768x1024_1_1_0_0_n_n_wf : DotDims.WF S32768x16 S1024x16 S32768x1024 [1] [1] [0] [0] [] []

variable [Facts₀]

def gather_S10000x1024_S32768x1_S32768x1024_1_0_n_n_0_1_11024 : GatherDims S10000x1024 S32768x1 S32768x1024 where
  offsetDims := [1]
  collapsedSliceDims := [0]
  operandBatchingDims := []
  startIndicesBatchingDims := []
  startIndexMap := [0]
  indexVectorDim := 1
  sliceSizes := ![1, 1024]
  wf := gather_S10000x1024_S32768x1_S32768x1024_1_0_n_n_0_1_11024_wf
def dot_S32768x1024_S1024x1024_S32768x1024_1_1_0_0_n_n : DotDims S32768x1024 S1024x1024 S32768x1024 where
  lhsContracting := [1]
  rhsContracting := [1]
  lhsNonContracting := [0]
  rhsNonContracting := [0]
  lhsBatch := []
  rhsBatch := []
  wf := dot_S32768x1024_S1024x1024_S32768x1024_1_1_0_0_n_n_wf
def gather_S50000x256_S32768x1_S32768x256_1_0_n_n_0_1_1256 : GatherDims S50000x256 S32768x1 S32768x256 where
  offsetDims := [1]
  collapsedSliceDims := [0]
  operandBatchingDims := []
  startIndicesBatchingDims := []
  startIndexMap := [0]
  indexVectorDim := 1
  sliceSizes := ![1, 256]
  wf := gather_S50000x256_S32768x1_S32768x256_1_0_n_n_0_1_1256_wf
def dot_S32768x256_S1024x256_S32768x1024_1_1_0_0_n_n : DotDims S32768x256 S1024x256 S32768x1024 where
  lhsContracting := [1]
  rhsContracting := [1]
  lhsNonContracting := [0]
  rhsNonContracting := [0]
  lhsBatch := []
  rhsBatch := []
  wf := dot_S32768x256_S1024x256_S32768x1024_1_1_0_0_n_n_wf
def gather_S130000x64_S32768x1_S32768x64_1_0_n_n_0_1_164 : GatherDims S130000x64 S32768x1 S32768x64 where
  offsetDims := [1]
  collapsedSliceDims := [0]
  operandBatchingDims := []
  startIndicesBatchingDims := []
  startIndexMap := [0]
  indexVectorDim := 1
  sliceSizes := ![1, 64]
  wf := gather_S130000x64_S32768x1_S32768x64_1_0_n_n_0_1_164_wf
def dot_S32768x64_S1024x64_S32768x1024_1_1_0_0_n_n : DotDims S32768x64 S1024x64 S32768x1024 where
  lhsContracting := [1]
  rhsContracting := [1]
  lhsNonContracting := [0]
  rhsNonContracting := [0]
  lhsBatch := []
  rhsBatch := []
  wf := dot_S32768x64_S1024x64_S32768x1024_1_1_0_0_n_n_wf
def gather_S60000x16_S32768x1_S32768x16_1_0_n_n_0_1_116 : GatherDims S60000x16 S32768x1 S32768x16 where
  offsetDims := [1]
  collapsedSliceDims := [0]
  operandBatchingDims := []
  startIndicesBatchingDims := []
  startIndexMap := [0]
  indexVectorDim := 1
  sliceSizes := ![1, 16]
  wf := gather_S60000x16_S32768x1_S32768x16_1_0_n_n_0_1_116_wf
def dot_S32768x16_S1024x16_S32768x1024_1_1_0_0_n_n : DotDims S32768x16 S1024x16 S32768x1024 where
  lhsContracting := [1]
  rhsContracting := [1]
  lhsNonContracting := [0]
  rhsNonContracting := [0]
  lhsBatch := []
  rhsBatch := []
  wf := dot_S32768x16_S1024x16_S32768x1024_1_1_0_0_n_n_wf

class Facts : Prop extends Facts₀ where

variable [Facts]
-- ==== Proof.ClusterWords.lean ====
/-
  Word arithmetic of a four-cluster vocabulary split, with no program in sight.

  A token id `x` (a signed 32-bit word) belongs to cluster k when lo_k ≤ x < hi_k, the cutoffs being
  0, 10000, 60000, 190000, 250000. Its row inside cluster k's table is x - lo_k clamped into
  [0, hi_k - lo_k - 1]; the clamp is taken signed, the upper bound first in the minimum.

  Two ways of choosing among four per-cluster values y0 … y3:
    * by a cluster number c computed first (3 if x is in cluster 3, else 2 if in cluster 2, else 1 if in
      cluster 1, else 0), then `c = 0 ? y0 : c = 1 ? y1 : c = 2 ? y2 : y3`;
    * by overwriting a default z in cluster order: in cluster 3 ? y3 : in 2 ? y2 : in 1 ? y1 : in 0 ? y0 : z.
  They agree whenever the id is in one of the clusters 1, 2, 3 — and otherwise exactly when it is in cluster 0,
  which is what 0 ≤ x < 250000 gives. The default z is never reached for an id of the vocabulary.

  The clamped row is a word in [0, top] read signed, so its unsigned value is at most top, it is not negative,
  and its signed and unsigned readings agree.
-/
import Idealize.ShloMosaic.PureOps.Ideal
import Idealize.ShloMosaic.Lib.StableHlo.Predicate

namespace Cert.ClusterWords

open Idealize.ShloMosaic Idealize.ShloMosaic.StableHlo.Predicate

/-- The row of an id inside a cluster's table: `x - lo` clamped, signed, into `[0, top]`. -/
def rowW (lo top x : BitVec 32) : BitVec 32 := IntOp.minsi top (IntOp.maxsi 0#32 (IntOp.subi x lo))

/-- The membership bit of `lo ≤ x < hi`, signed. -/
def inW (lo hi x : BitVec 32) : BitVec 1 := IntOp.andi (IntOp.cmpi .sge x lo) (IntOp.cmpi .slt x hi)

/-- The cluster number, as the overwrite chain computes it (later clusters win; none: 0). -/
def clusterW (x : BitVec 32) : BitVec 32 :=
  Scalar.select (inW 190000#32 250000#32 x) 3#32
    (Scalar.select (inW 60000#32 190000#32 x) 2#32
      (Scalar.select (inW 10000#32 60000#32 x) 1#32
        (Scalar.select (inW 0#32 10000#32 x) 0#32 0#32)))

/-- Choosing by the cluster number. -/
def byNumber {α : Type} (c : BitVec 32) (y0 y1 y2 y3 : α) : α :=
  Scalar.select (IntOp.cmpi .eq c 0#32) y0
    (Scalar.select (IntOp.cmpi .eq c 1#32) y1
      (Scalar.select (IntOp.cmpi .eq c 2#32) y2 y3))

/-- Choosing by overwriting a default in cluster order. -/
def byOverwrite {α : Type} (x : BitVec 32) (z y0 y1 y2 y3 : α) : α :=
  Scalar.select (inW 190000#32 250000#32 x) y3
    (Scalar.select (inW 60000#32 190000#32 x) y2
      (Scalar.select (inW 10000#32 60000#32 x) y1
        (Scalar.select (inW 0#32 10000#32 x) y0 z)))

/-! ## Signed readings -/

theorem toInt_cond (z : BitVec 32) : z.toInt = if 2 * z.toNat < 2 ^ 32 then (z.toNat : Int) else (z.toNat : Int) - 2 ^ 32 :=
  BitVec.toInt_eq_toNat_cond z

theorem zero_toInt : (0#32 : BitVec 32).toInt = 0 := by decide

/-- The membership bit read as inequalities between signed values. -/
theorem inW_eq_one_iff (lo hi x : BitVec 32) : inW lo hi x = 1#1 ↔ lo.toInt ≤ x.toInt ∧ x.toInt < hi.toInt := by
  unfold inW
  have and1 : ∀ a b : BitVec 1, IntOp.andi a b = 1#1 ↔ a = 1#1 ∧ b = 1#1 := by decide
  rw [and1]
  unfold IntOp.cmpi
  simp only [ofBool_eq_one_iff, BitVec.sle, BitVec.slt, decide_eq_true_eq]

/-! ## The clamped row -/

/-- The clamp's result read signed lies in `[0, top]`. -/
theorem rowW_toInt (lo top x : BitVec 32) (htop : 0 ≤ top.toInt) :
    0 ≤ (rowW lo top x).toInt ∧ (rowW lo top x).toInt ≤ top.toInt := by
  unfold rowW IntOp.minsi IntOp.maxsi
  split <;> rename_i h1 <;> split at * <;> rename_i h2 <;>
    simp only [BitVec.slt, decide_eq_true_eq, zero_toInt] at * <;> omega

/-- So its unsigned value is at most `top`'s, -/
theorem rowW_toNat_le (lo top x : BitVec 32) (htop : top.toNat < 2 ^ 31) :
    (rowW lo top x).toNat ≤ top.toNat := by
  have ht : top.toInt = top.toNat := toInt_eq_toNat_of_lt htop
  obtain ⟨h0, h1⟩ := rowW_toInt lo top x (by rw [ht]; exact Int.natCast_nonneg _)
  have hc := toInt_cond (rowW lo top x)
  have := (rowW lo top x).isLt
  split at hc <;> omega

/-- its signed reading, as a natural number, is its unsigned one, -/
theorem rowW_toInt_toNat (lo top x : BitVec 32) (htop : top.toNat < 2 ^ 31) :
    (rowW lo top x).toInt.toNat = (rowW lo top x).toNat := by
  have ht : top.toInt = top.toNat := toInt_eq_toNat_of_lt htop
  obtain ⟨h0, h1⟩ := rowW_toInt lo top x (by rw [ht]; exact Int.natCast_nonneg _)
  have hc := toInt_cond (rowW lo top x)
  have := (rowW lo top x).isLt
  split at hc <;> omega

/-- and it is not below zero, signed. -/
theorem rowW_not_neg (lo top x : BitVec 32) (htop : top.toNat < 2 ^ 31) :
    ¬ (IntOp.cmpi .slt (rowW lo top x) 0#32 = 1) := by
  have ht : top.toInt = top.toNat := toInt_eq_toNat_of_lt htop
  obtain ⟨h0, _⟩ := rowW_toInt lo top x (by rw [ht]; exact Int.natCast_nonneg _)
  intro h
  have h' : BitVec.ofBool ((rowW lo top x).slt 0#32) = 1#1 := h
  rw [ofBool_eq_one_iff] at h'
  simp only [BitVec.slt, decide_eq_true_eq, zero_toInt] at h'
  omega

/-! ## The two ways of choosing -/

/-- An id of the vocabulary that is in none of the clusters 1, 2, 3 is in cluster 0. -/
theorem in_cluster0 (x : BitVec 32) (h0 : IntOp.cmpi .sge x 0#32 = 1#1) (h1 : IntOp.cmpi .slt x 250000#32 = 1#1)
    (n1 : ¬ inW 10000#32 60000#32 x = 1#1) (n2 : ¬ inW 60000#32 190000#32 x = 1#1) (n3 : ¬ inW 190000#32 250000#32 x = 1#1) :
    inW 0#32 10000#32 x = 1#1 := by
  rw [inW_eq_one_iff] at n1 n2 n3 ⊢
  unfold IntOp.cmpi at h0 h1
  simp only [ofBool_eq_one_iff, BitVec.sle, BitVec.slt, decide_eq_true_eq] at h0 h1
  have e0 : (0#32 : BitVec 32).toInt = 0 := by decide
  have e1 : (10000#32 : BitVec 32).toInt = 10000 := by decide
  have e2 : (60000#32 : BitVec 32).toInt = 60000 := by decide
  have e3 : (190000#32 : BitVec 32).toInt = 190000 := by decide
  have e4 : (250000#32 : BitVec 32).toInt = 250000 := by decide
  rw [e0] at h0; rw [e4] at h1
  rw [e1, e2] at n1; rw [e2, e3] at n2; rw [e3, e4] at n3
  rw [e0, e1]
  omega

/-- Choosing by the cluster number is choosing by overwriting, for an id of the vocabulary. -/
theorem byNumber_eq_byOverwrite {α : Type} (x : BitVec 32) (h0 : IntOp.cmpi .sge x 0#32 = 1#1)
    (h1 : IntOp.cmpi .slt x 250000#32 = 1#1) (z y0 y1 y2 y3 : α) :
    byNumber (clusterW x) y0 y1 y2 y3 = byOverwrite x z y0 y1 y2 y3 := by
  unfold byNumber clusterW byOverwrite Scalar.select
  by_cases c3 : inW 190000#32 250000#32 x = 1
  · rw [if_pos c3, if_pos c3]
    rw [if_neg (by decide), if_neg (by decide), if_neg (by decide)]
  · rw [if_neg c3, if_neg c3]
    by_cases c2 : inW 60000#32 190000#32 x = 1
    · rw [if_pos c2, if_pos c2]
      rw [if_neg (by decide), if_neg (by decide), if_pos (by decide)]
    · rw [if_neg c2, if_neg c2]
      by_cases c1 : inW 10000#32 60000#32 x = 1
      · rw [if_pos c1, if_pos c1]
        rw [if_neg (by decide), if_pos (by decide)]
      · rw [if_neg c1, if_neg c1]
        have c0 : inW 0#32 10000#32 x = 1 := in_cluster0 x h0 h1 c1 c2 c3
        rw [if_pos c0, if_pos c0]
        rw [if_pos (by decide)]

end Cert.ClusterWords
-- ==== Proof.KernelTables.lean ====
/-
  Every table-indexed block of the kernel lies inside its table, for the program as printed (words and all).

  The five tables the region prefetches are computed by the program itself from the token ids: each gather
  table holds, per token, the id minus a cluster's lower cutoff clamped (signed) into [0, rows - 1]. A clamp into
  the table is below the table's row count, so the side condition of the gather holds for every memory: the
  same argument as for the idealized program, the integer prefix being the same text.
-/
import proofs.«412027_j120259084974_2_alg».proof.Proof.KernelFrameRuns
import proofs.«412027_j120259084974_2_alg».proof.Proof.ClusterWords

set_option maxRecDepth 16384

noncomputable section

namespace Cert.Kernel.Tables

open Cert.Kernel Cert.Kernel.Gen
open Idealize.ShloMosaic Idealize.ShloMosaic.TcCoe Idealize.SL.Sem Idealize.ShloMosaic.StableHlo
open Cert.ClusterWords

variable {F : FTy → Type} [FloatOps F] (m : (ℓ : Loc nD τ sig) → Buf (Elt F) ℓ)

/-- The token ids as the program is launched with them (the tables are read on the one device). -/
abbrev ids : IVec S32768 32 := m (((0 : Dev nD) : Thread nD τ).loc main_arg0)

/-! ## What the five tables hold when the region is entered -/

/-- Table 0: every id's row in the head table, `x` clamped into `[0, 9999]`. -/
theorem tbl0_eq : tbl m 0 = fun i => rowW 0#32 9999#32 (ids m i) := by
  unfold tbl
  show V m 0 main_v8 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Table 1: every id's row in the first tail table, `x - 10000` clamped into `[0, 49999]`. -/
theorem tbl1_eq : tbl m 1 = fun i => rowW 10000#32 49999#32 (ids m i) := by
  unfold tbl
  show V m 0 main_v17 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Table 2: every id's row in the second tail table, `x - 60000` clamped into `[0, 129999]`. -/
theorem tbl2_eq : tbl m 2 = fun i => rowW 60000#32 129999#32 (ids m i) := by
  unfold tbl
  show V m 0 main_v26 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Table 3: every id's row in the third tail table, `x - 190000` clamped into `[0, 59999]`. -/
theorem tbl3_eq : tbl m 3 = fun i => rowW 190000#32 59999#32 (ids m i) := by
  unfold tbl
  show V m 0 main_v35 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Table 4: every id's cluster number. -/
theorem tbl4_eq : tbl m 4 = fun i => clusterW (ids m i) := by
  unfold tbl
  show V m 0 main_v36 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-! ## Every table-indexed block lies inside its table

The first coordinate of a gathered block is a table word read unsigned; the word is a clamp into `[0, rows - 1]`, so it is
below the table's row count whatever the ids are. The other two coordinates are 0 and the block is a whole row. -/

theorem ok : Ok m := by
  have h0 : ∀ x, (tbl m 0 x).toNat ≤ 9999 := fun x => by rw [tbl0_eq]; exact rowW_toNat_le 0#32 9999#32 _ (by decide)
  have h1 : ∀ x, (tbl m 1 x).toNat ≤ 49999 := fun x => by rw [tbl1_eq]; exact rowW_toNat_le 10000#32 49999#32 _ (by decide)
  have h2 : ∀ x, (tbl m 2 x).toNat ≤ 129999 := fun x => by rw [tbl2_eq]; exact rowW_toNat_le 60000#32 129999#32 _ (by decide)
  have h3 : ∀ x, (tbl m 3 x).toNat ≤ 59999 := fun x => by rw [tbl3_eq]; exact rowW_toNat_le 190000#32 59999#32 _ (by decide)
  refine ⟨fun i => ?_, fun i => ?_, fun i => ?_, fun i => ?_⟩
  · obtain ⟨w, hw, e⟩ : ∃ w : BitVec 32, w.toNat ≤ 9999 ∧ cc0_transform_0 k0_off1_inb numel1_S1 (tbl m) i = ![w.toNat, 0, 0] :=
      ⟨_, h0 _, rfl⟩
    refine ⟨fun a => ?_, Or.inl rfl⟩
    rw [e]
    fin_cases a <;> simp [S1x1x1024, S10000x1x1024] <;> omega
  · obtain ⟨w, hw, e⟩ : ∃ w : BitVec 32, w.toNat ≤ 49999 ∧ cc0_transform_1 k0_off1_inb numel1_S1 (tbl m) i = ![w.toNat, 0, 0] :=
      ⟨_, h1 _, rfl⟩
    refine ⟨fun a => ?_, Or.inl rfl⟩
    rw [e]
    fin_cases a <;> simp [S1x1x256, S50000x1x256] <;> omega
  · obtain ⟨w, hw, e⟩ : ∃ w : BitVec 32, w.toNat ≤ 129999 ∧ cc0_transform_2 k0_off1_inb numel1_S1 (tbl m) i = ![w.toNat, 0, 0] :=
      ⟨_, h2 _, rfl⟩
    refine ⟨fun a => ?_, Or.inl rfl⟩
    rw [e]
    fin_cases a <;> simp [S1x1x64, S130000x1x64] <;> omega
  · obtain ⟨w, hw, e⟩ : ∃ w : BitVec 32, w.toNat ≤ 59999 ∧ cc0_transform_3 k0_off1_inb numel1_S1 (tbl m) i = ![w.toNat, 0, 0] :=
      ⟨_, h3 _, rfl⟩
    refine ⟨fun a => ?_, Or.inl rfl⟩
    rw [e]
    fin_cases a <;> simp [S1x1x16, S60000x1x16] <;> omega

end Cert.Kernel.Tables

end
-- ==== Proof.KernelIdealTables.lean ====
/-
  What the gather's tables and the staged arrays hold when the kernel region is entered.

  Before the region the program computes, from the token ids alone, five integer tables of one word per token:
  for each cluster k the row of the token in cluster k's embedding table — the id minus the cluster's lower cutoff,
  clamped (signed) into [0, rows_k - 1] — and the token's cluster number. The region gathers one row of each
  embedding table per token, at the row the table names; since each word is a clamp into the table, every
  gathered block lies inside its table WHATEVER the ids are: no assumption on the ids is needed for the gather
  to be in range. The same prefix lays each embedding table out with a unit middle axis and transposes each
  projection; these are the arrays the region's windows read.
-/
import proofs.«412027_j120259084974_2_alg».proof.Proof.KernelIdealFrameRuns
import proofs.«412027_j120259084974_2_alg».proof.Proof.ClusterWords

set_option maxRecDepth 16384

noncomputable section

namespace Cert.KernelIdeal.Tables

open Cert.KernelIdeal Cert.KernelIdeal.Gen
open Idealize.ShloMosaic Idealize.ShloMosaic.TcCoe Idealize.SL.Sem Idealize.ShloMosaic.StableHlo
open Cert.ClusterWords

variable {F : FTy → Type} [FloatOps F] (m : (ℓ : Loc nD τ sig) → Buf (Elt F) ℓ)

/-- The token ids as the program is launched with them (the tables are read on the one device). -/
abbrev ids : IVec S32768 32 := m (((0 : Dev nD) : Thread nD τ).loc main_arg0)

/-! ## What the five tables hold when the region is entered -/

/-- Table 0: every id's row in the head table, `x` clamped into `[0, 9999]`. -/
theorem tbl0_eq : tbl m 0 = fun i => rowW 0#32 9999#32 (ids m i) := by
  unfold tbl
  show V m 0 main_v8 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Table 1: every id's row in the first tail table, `x - 10000` clamped into `[0, 49999]`. -/
theorem tbl1_eq : tbl m 1 = fun i => rowW 10000#32 49999#32 (ids m i) := by
  unfold tbl
  show V m 0 main_v17 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Table 2: every id's row in the second tail table, `x - 60000` clamped into `[0, 129999]`. -/
theorem tbl2_eq : tbl m 2 = fun i => rowW 60000#32 129999#32 (ids m i) := by
  unfold tbl
  show V m 0 main_v26 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Table 3: every id's row in the third tail table, `x - 190000` clamped into `[0, 59999]`. -/
theorem tbl3_eq : tbl m 3 = fun i => rowW 190000#32 59999#32 (ids m i) := by
  unfold tbl
  show V m 0 main_v35 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- Table 4: every id's cluster number. -/
theorem tbl4_eq : tbl m 4 = fun i => clusterW (ids m i) := by
  unfold tbl
  show V m 0 main_v36 = _
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-! ## Every table-indexed block lies inside its table

The first coordinate of a gathered block is a table word read unsigned; the word is a clamp into `[0, rows - 1]`, so it is
below the table's row count whatever the ids are. The other two coordinates are 0 and the block is a whole row. -/

theorem ok : Ok m := by
  have h0 : ∀ x, (tbl m 0 x).toNat ≤ 9999 := fun x => by rw [tbl0_eq]; exact rowW_toNat_le 0#32 9999#32 _ (by decide)
  have h1 : ∀ x, (tbl m 1 x).toNat ≤ 49999 := fun x => by rw [tbl1_eq]; exact rowW_toNat_le 10000#32 49999#32 _ (by decide)
  have h2 : ∀ x, (tbl m 2 x).toNat ≤ 129999 := fun x => by rw [tbl2_eq]; exact rowW_toNat_le 60000#32 129999#32 _ (by decide)
  have h3 : ∀ x, (tbl m 3 x).toNat ≤ 59999 := fun x => by rw [tbl3_eq]; exact rowW_toNat_le 190000#32 59999#32 _ (by decide)
  refine ⟨fun i => ?_, fun i => ?_, fun i => ?_, fun i => ?_⟩
  · obtain ⟨w, hw, e⟩ : ∃ w : BitVec 32, w.toNat ≤ 9999 ∧ cc0_transform_0 k0_off1_inb numel1_S1 (tbl m) i = ![w.toNat, 0, 0] :=
      ⟨_, h0 _, rfl⟩
    refine ⟨fun a => ?_, Or.inl rfl⟩
    rw [e]
    fin_cases a <;> simp [S1x1x1024, S10000x1x1024] <;> omega
  · obtain ⟨w, hw, e⟩ : ∃ w : BitVec 32, w.toNat ≤ 49999 ∧ cc0_transform_1 k0_off1_inb numel1_S1 (tbl m) i = ![w.toNat, 0, 0] :=
      ⟨_, h1 _, rfl⟩
    refine ⟨fun a => ?_, Or.inl rfl⟩
    rw [e]
    fin_cases a <;> simp [S1x1x256, S50000x1x256] <;> omega
  · obtain ⟨w, hw, e⟩ : ∃ w : BitVec 32, w.toNat ≤ 129999 ∧ cc0_transform_2 k0_off1_inb numel1_S1 (tbl m) i = ![w.toNat, 0, 0] :=
      ⟨_, h2 _, rfl⟩
    refine ⟨fun a => ?_, Or.inl rfl⟩
    rw [e]
    fin_cases a <;> simp [S1x1x64, S130000x1x64] <;> omega
  · obtain ⟨w, hw, e⟩ : ∃ w : BitVec 32, w.toNat ≤ 59999 ∧ cc0_transform_3 k0_off1_inb numel1_S1 (tbl m) i = ![w.toNat, 0, 0] :=
      ⟨_, h3 _, rfl⟩
    refine ⟨fun a => ?_, Or.inl rfl⟩
    rw [e]
    fin_cases a <;> simp [S1x1x16, S60000x1x16] <;> omega

/-! ## The arrays the region's windows stage, as the region finds them -/

/-- The four embedding tables with a unit axis put in the middle, -/
theorem V_emb0 (c : Dev nD) : V m c main_v45 = shapeCast S10000x1x1024 (m ((c : Thread nD τ).loc main_arg1)) shapeCasts_S10000x1024_S10000x1x1024 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v45) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl
theorem V_emb1 (c : Dev nD) : V m c main_v46 = shapeCast S50000x1x256 (m ((c : Thread nD τ).loc main_arg3)) shapeCasts_S50000x256_S50000x1x256 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v46) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl
theorem V_emb2 (c : Dev nD) : V m c main_v47 = shapeCast S130000x1x64 (m ((c : Thread nD τ).loc main_arg5)) shapeCasts_S130000x64_S130000x1x64 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v47) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl
theorem V_emb3 (c : Dev nD) : V m c main_v48 = shapeCast S60000x1x16 (m ((c : Thread nD τ).loc main_arg7)) shapeCasts_S60000x16_S60000x1x16 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v48) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- and the four projections transposed (and narrowed in format). -/
theorem V_w0 (c : Dev nD) : V m c main_v38 = truncf .bf16 (transpose S1024x1024 [1, 0] (m ((c : Thread nD τ).loc main_arg2)) transposes_S1024x1024_S1024x1024_1_0) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v38) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
theorem V_w1 (c : Dev nD) : V m c main_v40 = truncf .bf16 (transpose S256x1024 [1, 0] (m ((c : Thread nD τ).loc main_arg4)) transposes_S1024x256_S256x1024_1_0) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v40) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
theorem V_w2 (c : Dev nD) : V m c main_v42 = truncf .bf16 (transpose S64x1024 [1, 0] (m ((c : Thread nD τ).loc main_arg6)) transposes_S1024x64_S64x1024_1_0) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v42) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
theorem V_w3 (c : Dev nD) : V m c main_v44 = truncf .bf16 (transpose S16x1024 [1, 0] (m ((c : Thread nD τ).loc main_arg8)) transposes_S1024x16_S16x1024_1_0) bitsLt_bf16_f32 := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b)) (Proc.devRef .tc main_v44) = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp

end Cert.KernelIdeal.Tables

end
-- ==== Proof.KernelToken.lean ====
/-
  The token a grid point works on.

  The kernel's grid is one-dimensional with 32768 points, one per token: point `t` handles token `t`. This file
  only names that token as an element of `Fin 32768`, so that statements about a point's blocks and about the
  rows of the [32768, …] arrays speak of the same number.
-/
import proofs.«412027_j120259084974_2_alg».proof.Proof.KernelIdealFrameRuns

set_option maxRecDepth 16384

noncomputable section

namespace Cert.KernelIdeal.Token

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The grid has 32768 points whatever the tables hold. -/
theorem points (hO : Ok m) : (cfgM m hO).N = 32768 := N_0

/-- The token of point `t`. -/
def tok (hO : Ok m) (t : Fin (cfgM m hO).N) : Fin 32768 := ⟨t.val, lt_of_lt_of_eq t.isLt (points m hO)⟩

theorem tok_val (hO : Ok m) (t : Fin (cfgM m hO).N) : (tok m hO t).val = t.val := by unfold tok; exact rfl

/-- The point of token `n`. -/
def pt (hO : Ok m) (n : Fin 32768) : Fin (cfgM m hO).N := ⟨n.val, lt_of_lt_of_eq n.isLt (points m hO).symm⟩

theorem tok_pt (hO : Ok m) (n : Fin 32768) : tok m hO (pt m hO n) = n := by unfold tok pt; exact Fin.ext rfl

/-- The grid coordinate of a point is the point's number. -/
theorem coords_val (hO : Ok m) (t : Fin (cfgM m hO).N) : ((cfgM m hO).grid.coords t 0).val = t.val := by
  show (grid0.coords t 0).val = t.val
  have hs : grid0.stride 0 = 1 := by decide
  have h := t.isLt
  have e := points m hO
  simp [Pipeline.Grid.coords]
  rw [hs, Nat.div_one]
  exact Nat.mod_eq_of_lt (lt_of_lt_of_eq h e)

end Cert.KernelIdeal.Token

end
-- ==== Proof.KernelArray.lean ====
/-
  From what each grid point leaves in the output block to the whole result array, on the extended reals.

  The kernel's grid has one point per token. Its output is an array of shape [32768, 1, 1024], cut into blocks of
  shape [1, 1, 1024]: point t owns block (t, 0, 0), that is row t, and writes it back when it is done, every
  point a different block. After the last point one shape change, [32768, 1, 1024] → [32768, 1024], gives the result.

  So if the block that point t leaves holds, at (0, 0, d), the value G (t, d) of a function G of the result's two
  coordinates, the result array is G:
    * element (0, 0, d) of block t is element (t, 0, d) of the array (a block's coordinate on an axis is
      block index × block size + the coordinate inside the block; the block index is (t, 0, 0));
    * every point writes its block back, since the next point's block index differs in its first component;
    * element (n, u, d) of the array lies in the block of point n, so the blocks cover the array, and the array
      ends holding (n, u, d) ↦ G (n, d);
    * the shape change keeps row-major positions: (n, d) of the result is (n, 0, d) of the array.
-/
import proofs.«412027_j120259084974_2_alg».proof.Proof.KernelIdealFrame
import proofs.«412027_j120259084974_2_alg».proof.Proof.KernelToken
import Idealize.ShloMosaic.Lib.Pipeline.Value
import Idealize.ShloMosaic.Lib.Pipeline.FrameSuffix
import Idealize.ShloMosaic.Lib.ValueIdx
import Idealize.ShloMosaic.Lib.StableHlo.Run

set_option maxRecDepth 16384

noncomputable section

namespace Cert.KernelIdeal.Arr

open Cert.KernelIdeal Cert.KernelIdeal.Gen Cert.KernelIdeal.Token
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (hO : Ok m) (c : Dev nD)

/-! ## The output window's blocks -/

/-- The block index of the output window at point `t`, on the array's three axes. -/
abbrev outIndex (t : Fin (cfgM m hO).N) : Fin 3 → Nat := ((cfgM m hO).win 8).index t

/-- Its first component is the point's number: the grid coordinate passes through a 32-bit word unchanged,
    being below 32768. -/
theorem outIndex_row (t : Fin (cfgM m hO).N) : outIndex m hO t 0 = t.val := by
  show (BitVec.ofNat 32 ((cfgM m hO).grid.coords t 0).val).toNat = t.val
  have ht : t.val < 32768 := lt_of_lt_of_eq t.isLt (points m hO)
  rw [coords_val m hO t, BitVec.toNat_ofNat, Nat.mod_eq_of_lt (by omega)]

/-- Block `t` of an array `f`, read at `y`, is `f` at (t, 0, y 2): on each axis the array coordinate is
    block index × block size + the coordinate inside the block, and the first two axes of a block have size one. -/
theorem blk_read (f : S32768x1x1024.Idx → EReal) (t : Fin (cfgM m hO).N) (y : S1x1x1024.Idx) :
    (((cfgM m hO).win 8).blk t).view.read (Elt Ideal) f y = f (ix3 (tok m hO t) (0 : Fin 1) (y 2)) := by
  refine (View.read_apply (Val := Elt Ideal) (v := (((cfgM m hO).win 8).blk t).view) f y).trans ?_
  show f _ = f _
  refine congrArg f (funext fun a => Fin.ext ?_)
  match a with
  | ⟨0, _⟩ =>
    show (BitVec.ofNat 32 ((cfgM m hO).grid.coords t 0).val).toNat * 1 + 1 * (y 0).val = (tok m hO t).val
    have hy : (y 0).val < 1 := (y 0).isLt
    have ht : t.val < 32768 := lt_of_lt_of_eq t.isLt (points m hO)
    rw [coords_val m hO t, tok_val, BitVec.toNat_ofNat, Nat.mod_eq_of_lt (by omega)]
    omega
  | ⟨1, _⟩ =>
    show 0 * 1 + 1 * (y 1).val = 0
    have hy : (y 1).val < 1 := (y 1).isLt
    omega
  | ⟨2, _⟩ =>
    show 0 * 1024 + 1 * (y 2).val = (y 2).val
    omega

/-- Every point writes its block back: it is the last point, or the next point's block index differs from its own
    in the first component. -/
theorem flush_all (t : Fin (cfgM m hO).N) : ((cfgM m hO).win 8).flush t = true := by
  unfold Pipeline.Window.flush
  show (true && _) = true
  rw [Bool.true_and, Bool.or_eq_true, decide_eq_true_eq, decide_eq_true_eq]
  have hN : (cfgM m hO).grid.N = 32768 := points m hO
  have ht : t.val < 32768 := lt_of_lt_of_eq t.isLt (points m hO)
  by_cases h : t.val + 1 = 32768
  · exact Or.inl (h.trans hN.symm)
  · refine Or.inr ⟨lt_of_lt_of_eq (by omega : t.val + 1 < 32768) hN.symm, fun e => ?_⟩
    have e0 : outIndex m hO ⟨t.val + 1, lt_of_lt_of_eq (by omega : t.val + 1 < 32768) hN.symm⟩ 0 = outIndex m hO t 0 :=
      congrFun e (0 : Fin 3)
    rw [outIndex_row, outIndex_row] at e0
    exact absurd e0 (by show ¬ t.val + 1 = t.val; omega)

/-- The blocks cover the array: element (n, u, d) lies in the block of the point of token `n`. -/
theorem cover (i : S32768x1x1024.Idx) :
    ∃ t : Fin (cfgM m hO).N, ((cfgM m hO).win 8).flush t = true ∧ i ∈ (((cfgM m hO).win 8).blk t).view.set := by
  obtain ⟨n, u, d, rfl⟩ : ∃ (n : Fin 32768) (u : Fin 1) (d : Fin 1024), i = ix3 n u d := ⟨i 0, i 1, i 2, eq_ix3 i⟩
  refine ⟨pt m hO n, flush_all m hO _, ?_⟩
  have hs : (((cfgM m hO).win 8).blk (pt m hO n)).view.set = (((cfgM m hO).win 8).rect (pt m hO n)).set :=
    View.set_slice_whole main_v49 _
  refine (Finset.ext_iff.mp hs _).mpr (Rect.mem_set_unit.mpr fun a => ?_)
  match a with
  | ⟨0, _⟩ =>
    show outIndex m hO (pt m hO n) 0 * 1 ≤ n.val ∧ n.val < outIndex m hO (pt m hO n) 0 * 1 + 1
    rw [outIndex_row]
    show n.val * 1 ≤ n.val ∧ n.val < n.val * 1 + 1
    omega
  | ⟨1, _⟩ =>
    show 0 * 1 ≤ u.val ∧ u.val < 0 * 1 + 1
    have := u.isLt
    omega
  | ⟨2, _⟩ =>
    show 0 * 1024 ≤ d.val ∧ d.val < 0 * 1024 + 1024
    have := d.isLt
    omega

/-! ## The array the points leave, and the result -/

section
variable (G : (⟨2, ![32768, 1024]⟩ : Shape).Idx → EReal)
  (hout : ∀ (t : Fin (cfgM m hO).N) (u v : Fin 1) (d : Fin 1024), outsAt0 m hO c t (ix3 u v d) = G (ix2 (tok m hO t) d))
include hout

/-- What point `t` writes back is block `t` of the array (n, u, d) ↦ G (n, d). -/
theorem flushed_eq (t : Fin (cfgM m hO).N) :
    (dats m hO 0 c).flushed 8 t
      = (((cfgM m hO).win 8).blk t).view.read (Elt Ideal) (fun j : S32768x1x1024.Idx => G (ix2 (j 0) (j 2))) := by
  show ((cfgM m hO).win 8).cut ((cfgM m hO).grid.coords t) ((dats m hO 0 c).after 8 t) = _
  rw [after0_8]
  refine funext fun (y : S1x1x1024.Idx) => ?_
  obtain ⟨u, v, d, rfl⟩ : ∃ (u : Fin 1) (v : Fin 1) (d : Fin 1024), y = ix3 u v d := ⟨y 0, y 1, y 2, eq_ix3 y⟩
  refine (hout t u v d).trans ?_
  exact (blk_read m hO (fun j : S32768x1x1024.Idx => G (ix2 (j 0) (j 2))) t (ix3 u v d)).symm

/-- So after the last point the array holds (n, u, d) ↦ G (n, d). -/
theorem final :
    (dats m hO 0 c).arrAt 8 (cfgM m hO).N = fun j : S32768x1x1024.Idx => G (ix2 (j 0) (j 2)) :=
  (dats m hO 0 c).arrAt_eq_of_cover 8 (fun j : S32768x1x1024.Idx => G (ix2 (j 0) (j 2)))
    (fun t _ => flushed_eq m hO c G hout t) (cover m hO)

/-- THE RESULT: the array with its unit axis dropped is `G`. Positions are kept in row-major order:
    (n · 1 + 0) · 1024 + d = n · 1024 + d. -/
theorem result_of :
    Pipeline.afterTail pcfgs (fun _ => adm m hO) (dats m hO) 0 (V0 m) [hostOps1] c main_v50 = G := by
  unfold Pipeline.afterTail
  show StableHlo.after hostOps1 _ (Proc.devRef .tc main_v50) = _
  after_results
  have hA : Pipeline.withArrays (Pipeline.pin pcfgs (fun _ => adm m hO) 0).spec c (V0 m c)
      (fun w => (dats m hO 0 c).arrAt w (Pipeline.pin pcfgs (fun _ => adm m hO) 0).N) (Proc.devRef .tc main_v49)
      = fun j : S32768x1x1024.Idx => G (ix2 (j 0) (j 2)) :=
    (Pipeline.withArrays_arr spec0 (launch0 (F := Ideal)).win.arr_inj c _ _ 8).trans (final m hO c G hout)
  rw [hA]
  funext j
  obtain ⟨n, d, rfl⟩ : ∃ (n : Fin 32768) (d : Fin 1024), j = ix2 n d := ⟨j 0, j 1, eq_ix2 j⟩
  show shapeCast S32768x1024 (fun j : S32768x1x1024.Idx => G (ix2 (j 0) (j 2))) shapeCasts_S32768x1x1024_S32768x1024 (ix2 n d)
    = G (ix2 n d)
  refine shapeCast_apply _ _ (ix2 n d) (ix3 n (0 : Fin 1) d) ?_
  rw [Shape.rowMajor_val_three, Shape.rowMajor_val_two]
  show (n.val * 1 + 0) * 1024 + d.val = n.val * 1024 + d.val
  omega

end

end Cert.KernelIdeal.Arr

end
-- ==== Proof.Lookup.lean ====
/-
  The adaptive embedding as one function of its argument arrays, entry by entry, on the extended reals.

  The vocabulary of 250000 ids is cut into four clusters at 10000, 60000 and 190000; cluster k has its own
  embedding table e_k with rows of width K_k = 1024, 256, 64, 16 and its own projection w_k of shape [1024, K_k].
  For token n with id x and output coordinate d, cluster k proposes
      y_k[n, d] = ∑ h, e_k[row_k(x), h] · w_k[d, h],
  where row_k(x) is x - lo_k clamped into the table (a total function of x: the clamp is part of both programs).
  One program picks y_k by a cluster number computed from x, the other overwrites a zero default in cluster
  order; on ids of the vocabulary, 0 ≤ x < 250000, they pick the same proposal (ClusterWords), so the two
  cell functions below are equal there. The sums are the same sums on both sides: no law of the extended reals
  beyond that is used, and no finiteness.
-/
import proofs.«412027_j120259084974_2_alg».proof.Proof.ClusterWords
import Idealize.ShloMosaic.Lib.ValueIdx

noncomputable section

open scoped BigOperators

namespace Cert.Lookup

open Idealize.ShloMosaic Idealize.ShloMosaic.ValueIdx Cert.ClusterWords

/-- A table row named by a word: the word's unsigned value, kept inside a table of `r + 1` rows. -/
def head_row (w : BitVec 32) : Fin 10000 := ⟨min w.toNat 9999, by omega⟩
def tail0_row (w : BitVec 32) : Fin 50000 := ⟨min w.toNat 49999, by omega⟩
def tail1_row (w : BitVec 32) : Fin 130000 := ⟨min w.toNat 129999, by omega⟩
def tail2_row (w : BitVec 32) : Fin 60000 := ⟨min w.toNat 59999, by omega⟩

/-- Row `r` of a table times the projection's row `d`: `∑ h, e[r, h] · w[d, h]`. -/
def proj {R K : Nat} (e : (⟨2, ![R, K]⟩ : Shape).Idx → EReal) (w : (⟨2, ![1024, K]⟩ : Shape).Idx → EReal)
    (r : Fin R) (d : Fin 1024) : EReal :=
  ∑ h : Fin K, e (ix2 r h) * w (ix2 d h)

section
variable (ids : (⟨1, ![32768]⟩ : Shape).Idx → BitVec 32)
  (e0 : (⟨2, ![10000, 1024]⟩ : Shape).Idx → EReal) (w0 : (⟨2, ![1024, 1024]⟩ : Shape).Idx → EReal)
  (e1 : (⟨2, ![50000, 256]⟩ : Shape).Idx → EReal) (w1 : (⟨2, ![1024, 256]⟩ : Shape).Idx → EReal)
  (e2 : (⟨2, ![130000, 64]⟩ : Shape).Idx → EReal) (w2 : (⟨2, ![1024, 64]⟩ : Shape).Idx → EReal)
  (e3 : (⟨2, ![60000, 16]⟩ : Shape).Idx → EReal) (w3 : (⟨2, ![1024, 16]⟩ : Shape).Idx → EReal)

/-- What each cluster proposes for token `n`, coordinate `d`. -/
def y0 (n : Fin 32768) (d : Fin 1024) : EReal := proj e0 w0 (head_row (rowW 0#32 9999#32 (ids (ix1 n)))) d
def y1 (n : Fin 32768) (d : Fin 1024) : EReal := proj e1 w1 (tail0_row (rowW 10000#32 49999#32 (ids (ix1 n)))) d
def y2 (n : Fin 32768) (d : Fin 1024) : EReal := proj e2 w2 (tail1_row (rowW 60000#32 129999#32 (ids (ix1 n)))) d
def y3 (n : Fin 32768) (d : Fin 1024) : EReal := proj e3 w3 (tail2_row (rowW 190000#32 59999#32 (ids (ix1 n)))) d

/-- The cell picked by the cluster number. -/
def cellByNumber (n : Fin 32768) (d : Fin 1024) : EReal :=
  byNumber (clusterW (ids (ix1 n))) (y0 ids e0 w0 n d) (y1 ids e1 w1 n d) (y2 ids e2 w2 n d) (y3 ids e3 w3 n d)

/-- The cell left by overwriting the default `z` in cluster order. -/
def cellByOverwrite (z : EReal) (n : Fin 32768) (d : Fin 1024) : EReal :=
  byOverwrite (ids (ix1 n)) z (y0 ids e0 w0 n d) (y1 ids e1 w1 n d) (y2 ids e2 w2 n d) (y3 ids e3 w3 n d)

/-- THE RESULT ARRAY: [32768, 1024], cell `(n, d)` picked by the cluster number. -/
def result : (⟨2, ![32768, 1024]⟩ : Shape).Idx → EReal := fun j => cellByNumber ids e0 w0 e1 w1 e2 w2 e3 w3 (j 0) (j 1)

/-- On ids of the vocabulary the two ways of picking give the same cell, whatever the default. -/
theorem cellByOverwrite_eq (hids : ∀ n : Fin 32768, IntOp.cmpi .sge (ids (ix1 n)) 0#32 = 1#1 ∧ IntOp.cmpi .slt (ids (ix1 n)) 250000#32 = 1#1)
    (z : EReal) (n : Fin 32768) (d : Fin 1024) :
    cellByOverwrite ids e0 w0 e1 w1 e2 w2 e3 w3 z n d = cellByNumber ids e0 w0 e1 w1 e2 w2 e3 w3 n d :=
  (byNumber_eq_byOverwrite _ (hids n).1 (hids n).2 z _ _ _ _).symm

end

/-! ## The clamped rows as table rows -/

theorem head_row_val (x : BitVec 32) : (head_row (rowW 0#32 9999#32 x)).val = (rowW 0#32 9999#32 x).toNat := by
  have := rowW_toNat_le 0#32 9999#32 x (by decide)
  have e : (9999#32 : BitVec 32).toNat = 9999 := by decide
  show min _ 9999 = _; omega
theorem tail0_row_val (x : BitVec 32) : (tail0_row (rowW 10000#32 49999#32 x)).val = (rowW 10000#32 49999#32 x).toNat := by
  have := rowW_toNat_le 10000#32 49999#32 x (by decide)
  have e : (49999#32 : BitVec 32).toNat = 49999 := by decide
  show min _ 49999 = _; omega
theorem tail1_row_val (x : BitVec 32) : (tail1_row (rowW 60000#32 129999#32 x)).val = (rowW 60000#32 129999#32 x).toNat := by
  have := rowW_toNat_le 60000#32 129999#32 x (by decide)
  have e : (129999#32 : BitVec 32).toNat = 129999 := by decide
  show min _ 129999 = _; omega
theorem tail2_row_val (x : BitVec 32) : (tail2_row (rowW 190000#32 59999#32 x)).val = (rowW 190000#32 59999#32 x).toNat := by
  have := rowW_toNat_le 190000#32 59999#32 x (by decide)
  have e : (59999#32 : BitVec 32).toNat = 59999 := by decide
  show min _ 59999 = _; omega

end Cert.Lookup

end
-- ==== Proof.KernelBlocks.lean ====
/-
  What each input window of the kernel's grid holds at a grid point, as entries of the argument arrays.

  The grid has one axis of 32768 points, one token per point. Windows 0 to 3 each fetch one row [1, 1, K] of an
  embedding table laid out [rows, 1, K]; the row is the word that the window's table (one word per token, computed
  from the ids before the region) holds at the point's token. That word is the id minus the cluster's lower cutoff,
  clamped into the table, so the row is the lookup's clamped row of it; and a table laid out with a unit middle axis
  reads, at (r, 0, h), the argument at (r, h). Windows 4 to 7 are the whole transposed projections at every point:
  entry (h, d) of the block is entry (d, h) of the argument, the narrowing of the format being the identity on the
  extended reals.

  The coordinate arithmetic is done once, for arbitrary table contents and an arbitrary array (section Generic): an
  element of a block sits, on each axis, at block index × block size + its own coordinate, every stride being 1.
  The statements about the launch memory are instances of those, followed by what the tables and the staged arrays
  hold.
-/
import proofs.«412027_j120259084974_2_alg».proof.Proof.KernelIdealFrameRuns
import proofs.«412027_j120259084974_2_alg».proof.Proof.KernelIdealTables
import proofs.«412027_j120259084974_2_alg».proof.Proof.KernelToken
import proofs.«412027_j120259084974_2_alg».proof.Proof.Lookup
import Idealize.ShloMosaic.Lib.ValueIdx
import Idealize.ShloMosaic.Lib.ValueLayout
import Idealize.ShloMosaic.Lib.Pipeline.Value

set_option maxRecDepth 16384

noncomputable section

namespace Cert.KernelIdeal.Blocks

open Cert.KernelIdeal Cert.KernelIdeal.Gen Cert.KernelIdeal.Tables Cert.KernelIdeal.Token Cert.Lookup Cert.ClusterWords
open Idealize.ShloMosaic Idealize.ShloMosaic.ValueIdx Idealize.ShloMosaic.TcCoe Idealize.SL.Sem

variable (m : (ℓ : Loc nD τ sig) → Buf (Elt Ideal) ℓ) (hO : Ok m) (c : Dev nD)

/-- A table [a, b] laid out as [a, 1, b] reads, at (i, u, j), the table at (i, j). -/
theorem shapeCast_a1b_apply {α : Type} {a b : ℕ} (x : (⟨2, ![a, b]⟩ : Shape).Idx → α)
    (hc : (⟨2, ![a, b]⟩ : Shape).ShapeCasts ⟨3, ![a, 1, b]⟩) (i : Fin a) (u : Fin 1) (j : Fin b) :
    shapeCast ⟨3, ![a, 1, b]⟩ x hc (ix3 i u j) = x (ix2 i j) :=
  shapeCast_apply x hc _ _ (by
    have hu : u.val = 0 := by omega
    rw [Shape.rowMajor_val_three, Shape.rowMajor_val_two]
    show i.val * b + j.val = (i.val * 1 + u.val) * b + j.val
    rw [hu, Nat.mul_one, Nat.add_zero])

/-! ## Block reads for arbitrary admissible tables and an arbitrary array

Everything about coordinates is done here, where the tables' contents `a.1` and the array `A` are plain variables. -/

section Generic

variable (a : (pcfg0 (F := Ideal)).Adm)

/-- On the one-axis grid a point's coordinate is its number. -/
theorem coordsG (t : Fin (cfg0 a).N) : ((cfg0 a).grid.coords t 0).val = t.val := by
  have hs : grid0.stride 0 = 1 := by decide
  have ht : t.val < 32768 := lt_of_lt_of_eq t.isLt N_0
  show t.val / grid0.stride 0 % 32768 = t.val
  rw [hs, Nat.div_one, Nat.mod_eq_of_lt ht]

/-- The one index a unit rectangle at offset (the point's coordinate, as a 32-bit word read back unsigned) has in a
    table of one word per token is the index of the point's token. -/
theorem emb_tokG (t : Fin (cfg0 a).N) (n : Fin 32768) (hn : n.val = t.val)
    (inb : ∀ k, (![(Scalar.indexCast (BitVec.ofNat 32 ((cfg0 a).grid.coords t 0).val)).toNat] : Fin 1 → Nat) k + S1.size k ≤ S32768.size k)
    (h1 : 0 < S1.numel) :
    (Rect.unit (s := S32768) ![(Scalar.indexCast (BitVec.ofNat 32 ((cfg0 a).grid.coords t 0).val)).toNat] S1.size inb).emb (Shape.Idx.first h1)
      = ix1 n := by
  funext k
  apply Fin.ext
  match k with
  | ⟨0, _⟩ =>
    have hf : (Shape.Idx.first h1 (0 : Fin 1)).val = 0 := by
      have := (Shape.Idx.first h1 (0 : Fin 1)).isLt
      have e : S1.size (0 : Fin 1) = 1 := by decide
      omega
    have ht : t.val < 32768 := lt_of_lt_of_eq t.isLt N_0
    show (BitVec.ofNat 32 ((cfg0 a).grid.coords t 0).val).toNat + 1 * (Shape.Idx.first h1 (0 : Fin 1)).val = n.val
    rw [hf, coordsG, hn, BitVec.toNat_ofNat]
    omega

/-- The block indices of the four gathered windows at a point: the table's word at the point's token, then 0, 0. -/
theorem idxG0 (t : Fin (cfg0 a).N) (n : Fin 32768) (hn : n.val = t.val) :
    cc0_transform_0 k0_off1_inb numel1_S1 a.1 ((cfg0 a).grid.coords t) = ![(a.1 0 (ix1 n)).toNat, 0, 0] :=
  congrArg (fun i => (![(a.1 0 i).toNat, 0, 0] : Fin 3 → Nat)) (emb_tokG a t n hn (k0_off1_inb _) (numel1_S1.symm ▸ Nat.one_pos))
theorem idxG1 (t : Fin (cfg0 a).N) (n : Fin 32768) (hn : n.val = t.val) :
    cc0_transform_1 k0_off1_inb numel1_S1 a.1 ((cfg0 a).grid.coords t) = ![(a.1 1 (ix1 n)).toNat, 0, 0] :=
  congrArg (fun i => (![(a.1 1 i).toNat, 0, 0] : Fin 3 → Nat)) (emb_tokG a t n hn (k0_off1_inb _) (numel1_S1.symm ▸ Nat.one_pos))
theorem idxG2 (t : Fin (cfg0 a).N) (n : Fin 32768) (hn : n.val = t.val) :
    cc0_transform_2 k0_off1_inb numel1_S1 a.1 ((cfg0 a).grid.coords t) = ![(a.1 2 (ix1 n)).toNat, 0, 0] :=
  congrArg (fun i => (![(a.1 2 i).toNat, 0, 0] : Fin 3 → Nat)) (emb_tokG a t n hn (k0_off1_inb _) (numel1_S1.symm ▸ Nat.one_pos))
theorem idxG3 (t : Fin (cfg0 a).N) (n : Fin 32768) (hn : n.val = t.val) :
    cc0_transform_3 k0_off1_inb numel1_S1 a.1 ((cfg0 a).grid.coords t) = ![(a.1 3 (ix1 n)).toNat, 0, 0] :=
  congrArg (fun i => (![(a.1 3 i).toNat, 0, 0] : Fin 3 → Nat)) (emb_tokG a t n hn (k0_off1_inb _) (numel1_S1.symm ▸ Nat.one_pos))

/-- Window 0's block at a point is row r of the array, r the head table's word at the point's token. -/
theorem read0 (A : Vec Ideal S10000x1x1024 .f32) (t : Fin (cfg0 a).N) (n : Fin 32768) (hn : n.val = t.val) (h : Fin 1024)
    (r : Fin 10000) (hr : (a.1 0 (ix1 n)).toNat = r.val) :
    ((((cfg0 a).win 0).blk t).view.read (Elt Ideal) A : Vec Ideal S1x1x1024 .f32) (ix3 (0 : Fin 1) (0 : Fin 1) h)
      = A (ix3 r (0 : Fin 1) h) := by
  refine (View.read_apply _ _).trans ?_
  show A _ = A _
  congr 1
  funext k
  apply Fin.ext
  match k with
  | ⟨0, _⟩ =>
    show cc0_transform_0 k0_off1_inb numel1_S1 a.1 ((cfg0 a).grid.coords t) 0 * 1 + 1 * 0 = r.val
    rw [idxG0 a t n hn, ← hr]
    show (a.1 0 (ix1 n)).toNat * 1 + 1 * 0 = _
    omega
  | ⟨1, _⟩ =>
    show cc0_transform_0 k0_off1_inb numel1_S1 a.1 ((cfg0 a).grid.coords t) 1 * 1 + 1 * 0 = 0
    rw [idxG0 a t n hn]
    rfl
  | ⟨2, _⟩ =>
    show cc0_transform_0 k0_off1_inb numel1_S1 a.1 ((cfg0 a).grid.coords t) 2 * 1024 + 1 * h.val = h.val
    rw [idxG0 a t n hn]
    show 0 * 1024 + 1 * h.val = h.val
    omega

/-- Window 1's block at a point is row r of the array, r table 1's word at the point's token. -/
theorem read1 (A : Vec Ideal S50000x1x256 .f32) (t : Fin (cfg0 a).N) (n : Fin 32768) (hn : n.val = t.val) (h : Fin 256)
    (r : Fin 50000) (hr : (a.1 1 (ix1 n)).toNat = r.val) :
    ((((cfg0 a).win 1).blk t).view.read (Elt Ideal) A : Vec Ideal S1x1x256 .f32) (ix3 (0 : Fin 1) (0 : Fin 1) h)
      = A (ix3 r (0 : Fin 1) h) := by
  refine (View.read_apply _ _).trans ?_
  show A _ = A _
  congr 1
  funext k
  apply Fin.ext
  match k with
  | ⟨0, _⟩ =>
    show cc0_transform_1 k0_off1_inb numel1_S1 a.1 ((cfg0 a).grid.coords t) 0 * 1 + 1 * 0 = r.val
    rw [idxG1 a t n hn, ← hr]
    show (a.1 1 (ix1 n)).toNat * 1 + 1 * 0 = _
    omega
  | ⟨1, _⟩ =>
    show cc0_transform_1 k0_off1_inb numel1_S1 a.1 ((cfg0 a).grid.coords t) 1 * 1 + 1 * 0 = 0
    rw [idxG1 a t n hn]
    rfl
  | ⟨2, _⟩ =>
    show cc0_transform_1 k0_off1_inb numel1_S1 a.1 ((cfg0 a).grid.coords t) 2 * 256 + 1 * h.val = h.val
    rw [idxG1 a t n hn]
    show 0 * 256 + 1 * h.val = h.val
    omega

/-- Window 2's block at a point is row r of the array, r table 2's word at the point's token. -/
theorem read2 (A : Vec Ideal S130000x1x64 .f32) (t : Fin (cfg0 a).N) (n : Fin 32768) (hn : n.val = t.val) (h : Fin 64)
    (r : Fin 130000) (hr : (a.1 2 (ix1 n)).toNat = r.val) :
    ((((cfg0 a).win 2).blk t).view.read (Elt Ideal) A : Vec Ideal S1x1x64 .f32) (ix3 (0 : Fin 1) (0 : Fin 1) h)
      = A (ix3 r (0 : Fin 1) h) := by
  refine (View.read_apply _ _).trans ?_
  show A _ = A _
  congr 1
  funext k
  apply Fin.ext
  match k with
  | ⟨0, _⟩ =>
    show cc0_transform_2 k0_off1_inb numel1_S1 a.1 ((cfg0 a).grid.coords t) 0 * 1 + 1 * 0 = r.val
    rw [idxG2 a t n hn, ← hr]
    show (a.1 2 (ix1 n)).toNat * 1 + 1 * 0 = _
    omega
  | ⟨1, _⟩ =>
    show cc0_transform_2 k0_off1_inb numel1_S1 a.1 ((cfg0 a).grid.coords t) 1 * 1 + 1 * 0 = 0
    rw [idxG2 a t n hn]
    rfl
  | ⟨2, _⟩ =>
    show cc0_transform_2 k0_off1_inb numel1_S1 a.1 ((cfg0 a).grid.coords t) 2 * 64 + 1 * h.val = h.val
    rw [idxG2 a t n hn]
    show 0 * 64 + 1 * h.val = h.val
    omega

/-- Window 3's block at a point is row r of the array, r table 3's word at the point's token. -/
theorem read3 (A : Vec Ideal S60000x1x16 .f32) (t : Fin (cfg0 a).N) (n : Fin 32768) (hn : n.val = t.val) (h : Fin 16)
    (r : Fin 60000) (hr : (a.1 3 (ix1 n)).toNat = r.val) :
    ((((cfg0 a).win 3).blk t).view.read (Elt Ideal) A : Vec Ideal S1x1x16 .f32) (ix3 (0 : Fin 1) (0 : Fin 1) h)
      = A (ix3 r (0 : Fin 1) h) := by
  refine (View.read_apply _ _).trans ?_
  show A _ = A _
  congr 1
  funext k
  apply Fin.ext
  match k with
  | ⟨0, _⟩ =>
    show cc0_transform_3 k0_off1_inb numel1_S1 a.1 ((cfg0 a).grid.coords t) 0 * 1 + 1 * 0 = r.val
    rw [idxG3 a t n hn, ← hr]
    show (a.1 3 (ix1 n)).toNat * 1 + 1 * 0 = _
    omega
  | ⟨1, _⟩ =>
    show cc0_transform_3 k0_off1_inb numel1_S1 a.1 ((cfg0 a).grid.coords t) 1 * 1 + 1 * 0 = 0
    rw [idxG3 a t n hn]
    rfl
  | ⟨2, _⟩ =>
    show cc0_transform_3 k0_off1_inb numel1_S1 a.1 ((cfg0 a).grid.coords t) 2 * 16 + 1 * h.val = h.val
    rw [idxG3 a t n hn]
    show 0 * 16 + 1 * h.val = h.val
    omega

/-- Window 4's block is its whole [1024, 1024] array at every point. -/
theorem read4 (A : Vec Ideal S1024x1024 .bf16) (t : Fin (cfg0 a).N) (h : Fin 1024) (d : Fin 1024) :
    ((((cfg0 a).win 4).blk t).view.read (Elt Ideal) A : Vec Ideal S1024x1024 .bf16) (ix2 h d) = A (ix2 h d) := by
  refine (View.read_apply _ _).trans ?_
  show A _ = A _
  congr 1
  funext k
  apply Fin.ext
  have e : cc0_transform_4 ((cfg0 a).grid.coords t) = ![0, 0] := rfl
  match k with
  | ⟨0, _⟩ =>
    show cc0_transform_4 ((cfg0 a).grid.coords t) 0 * 1024 + 1 * h.val = h.val
    rw [e]
    show 0 * 1024 + 1 * h.val = h.val
    omega
  | ⟨1, _⟩ =>
    show cc0_transform_4 ((cfg0 a).grid.coords t) 1 * 1024 + 1 * d.val = d.val
    rw [e]
    show 0 * 1024 + 1 * d.val = d.val
    omega

/-- Window 5's block is its whole [256, 1024] array at every point. -/
theorem read5 (A : Vec Ideal S256x1024 .bf16) (t : Fin (cfg0 a).N) (h : Fin 256) (d : Fin 1024) :
    ((((cfg0 a).win 5).blk t).view.read (Elt Ideal) A : Vec Ideal S256x1024 .bf16) (ix2 h d) = A (ix2 h d) := by
  refine (View.read_apply _ _).trans ?_
  show A _ = A _
  congr 1
  funext k
  apply Fin.ext
  have e : cc0_transform_5 ((cfg0 a).grid.coords t) = ![0, 0] := rfl
  match k with
  | ⟨0, _⟩ =>
    show cc0_transform_5 ((cfg0 a).grid.coords t) 0 * 256 + 1 * h.val = h.val
    rw [e]
    show 0 * 256 + 1 * h.val = h.val
    omega
  | ⟨1, _⟩ =>
    show cc0_transform_5 ((cfg0 a).grid.coords t) 1 * 1024 + 1 * d.val = d.val
    rw [e]
    show 0 * 1024 + 1 * d.val = d.val
    omega

/-- Window 6's block is its whole [64, 1024] array at every point. -/
theorem read6 (A : Vec Ideal S64x1024 .bf16) (t : Fin (cfg0 a).N) (h : Fin 64) (d : Fin 1024) :
    ((((cfg0 a).win 6).blk t).view.read (Elt Ideal) A : Vec Ideal S64x1024 .bf16) (ix2 h d) = A (ix2 h d) := by
  refine (View.read_apply _ _).trans ?_
  show A _ = A _
  congr 1
  funext k
  apply Fin.ext
  have e : cc0_transform_6 ((cfg0 a).grid.coords t) = ![0, 0] := rfl
  match k with
  | ⟨0, _⟩ =>
    show cc0_transform_6 ((cfg0 a).grid.coords t) 0 * 64 + 1 * h.val = h.val
    rw [e]
    show 0 * 64 + 1 * h.val = h.val
    omega
  | ⟨1, _⟩ =>
    show cc0_transform_6 ((cfg0 a).grid.coords t) 1 * 1024 + 1 * d.val = d.val
    rw [e]
    show 0 * 1024 + 1 * d.val = d.val
    omega

/-- Window 7's block is its whole [16, 1024] array at every point. -/
theorem read7 (A : Vec Ideal S16x1024 .bf16) (t : Fin (cfg0 a).N) (h : Fin 16) (d : Fin 1024) :
    ((((cfg0 a).win 7).blk t).view.read (Elt Ideal) A : Vec Ideal S16x1024 .bf16) (ix2 h d) = A (ix2 h d) := by
  refine (View.read_apply _ _).trans ?_
  show A _ = A _
  congr 1
  funext k
  apply Fin.ext
  have e : cc0_transform_7 ((cfg0 a).grid.coords t) = ![0, 0] := rfl
  match k with
  | ⟨0, _⟩ =>
    show cc0_transform_7 ((cfg0 a).grid.coords t) 0 * 16 + 1 * h.val = h.val
    rw [e]
    show 0 * 16 + 1 * h.val = h.val
    omega
  | ⟨1, _⟩ =>
    show cc0_transform_7 ((cfg0 a).grid.coords t) 1 * 1024 + 1 * d.val = d.val
    rw [e]
    show 0 * 1024 + 1 * d.val = d.val
    omega

end Generic

/-! ## The blocks of the launch memory's arrays -/

/-- The head table's row of the point's token, coordinate h. -/
theorem emb0_block (t : Fin (cfgM m hO).N) (h : Fin 1024) :
    (iblk m hO c 0 t : Vec Ideal S1x1x1024 .f32) (ix3 (0 : Fin 1) (0 : Fin 1) h)
      = m ((c : Thread nD τ).loc main_arg1) (ix2 (head_row (rowW 0#32 9999#32 (ids m (ix1 (tok m hO t))))) h) := by
  have hr : (tbl m 0 (ix1 (tok m hO t))).toNat = (head_row (rowW 0#32 9999#32 (ids m (ix1 (tok m hO t))))).val := by
    rw [tbl0_eq, head_row_val]
  refine (read0 (adm m hO) (V m c main_v45) t (tok m hO t) (tok_val m hO t) h _ hr).trans ?_
  rw [V_emb0]
  exact shapeCast_a1b_apply _ _ _ _ _

/-- The first tail table's row of the point's token, coordinate h. -/
theorem emb1_block (t : Fin (cfgM m hO).N) (h : Fin 256) :
    (iblk m hO c 1 t : Vec Ideal S1x1x256 .f32) (ix3 (0 : Fin 1) (0 : Fin 1) h)
      = m ((c : Thread nD τ).loc main_arg3) (ix2 (tail0_row (rowW 10000#32 49999#32 (ids m (ix1 (tok m hO t))))) h) := by
  have hr : (tbl m 1 (ix1 (tok m hO t))).toNat = (tail0_row (rowW 10000#32 49999#32 (ids m (ix1 (tok m hO t))))).val := by
    rw [tbl1_eq, tail0_row_val]
  refine (read1 (adm m hO) (V m c main_v46) t (tok m hO t) (tok_val m hO t) h _ hr).trans ?_
  rw [V_emb1]
  exact shapeCast_a1b_apply _ _ _ _ _

/-- The second tail table's row of the point's token, coordinate h. -/
theorem emb2_block (t : Fin (cfgM m hO).N) (h : Fin 64) :
    (iblk m hO c 2 t : Vec Ideal S1x1x64 .f32) (ix3 (0 : Fin 1) (0 : Fin 1) h)
      = m ((c : Thread nD τ).loc main_arg5) (ix2 (tail1_row (rowW 60000#32 129999#32 (ids m (ix1 (tok m hO t))))) h) := by
  have hr : (tbl m 2 (ix1 (tok m hO t))).toNat = (tail1_row (rowW 60000#32 129999#32 (ids m (ix1 (tok m hO t))))).val := by
    rw [tbl2_eq, tail1_row_val]
  refine (read2 (adm m hO) (V m c main_v47) t (tok m hO t) (tok_val m hO t) h _ hr).trans ?_
  rw [V_emb2]
  exact shapeCast_a1b_apply _ _ _ _ _

/-- The third tail table's row of the point's token, coordinate h. -/
theorem emb3_block (t : Fin (cfgM m hO).N) (h : Fin 16) :
    (iblk m hO c 3 t : Vec Ideal S1x1x16 .f32) (ix3 (0 : Fin 1) (0 : Fin 1) h)
      = m ((c : Thread nD τ).loc main_arg7) (ix2 (tail2_row (rowW 190000#32 59999#32 (ids m (ix1 (tok m hO t))))) h) := by
  have hr : (tbl m 3 (ix1 (tok m hO t))).toNat = (tail2_row (rowW 190000#32 59999#32 (ids m (ix1 (tok m hO t))))).val := by
    rw [tbl3_eq, tail2_row_val]
  refine (read3 (adm m hO) (V m c main_v48) t (tok m hO t) (tok_val m hO t) h _ hr).trans ?_
  rw [V_emb3]
  exact shapeCast_a1b_apply _ _ _ _ _

/-- The four projections, transposed: entry (h, d) of the block is entry (d, h) of the argument (the change of
    format is the identity on the extended reals). -/
theorem w0_block (t : Fin (cfgM m hO).N) (h : Fin 1024) (d : Fin 1024) :
    (iblk m hO c 4 t : Vec Ideal S1024x1024 .bf16) (ix2 h d) = m ((c : Thread nD τ).loc main_arg2) (ix2 d h) := by
  refine (read4 (adm m hO) (V m c main_v38) t h d).trans ?_
  rw [V_w0]
  exact transpose_ix2_apply _ _ h d
theorem w1_block (t : Fin (cfgM m hO).N) (h : Fin 256) (d : Fin 1024) :
    (iblk m hO c 5 t : Vec Ideal S256x1024 .bf16) (ix2 h d) = m ((c : Thread nD τ).loc main_arg4) (ix2 d h) := by
  refine (read5 (adm m hO) (V m c main_v40) t h d).trans ?_
  rw [V_w1]
  exact transpose_ix2_apply _ _ h d
theorem w2_block (t : Fin (cfgM m hO).N) (h : Fin 64) (d : Fin 1024) :
    (iblk m hO c 6 t : Vec Ideal S64x1024 .bf16) (ix2 h d) = m ((c : Thread nD τ).loc main_arg6) (ix2 d h) := by
  refine (read6 (adm m hO) (V m c main_v42) t h d).trans ?_
  rw [V_w2]
  exact transpose_ix2_apply _ _ h d
theorem w3_block (t : Fin (cfgM m hO).N) (h : Fin 16) (d : Fin 1024) :
    (iblk m hO c 7 t : Vec Ideal S16x1024 .bf16) (ix2 h d) = m ((c : Thread nD τ).loc main_arg8) (ix2 d h) := by
  refine (read7 (adm m hO) (V m c main_v44) t h d).trans ?_
  rw [V_w3]
  exact transpose_ix2_apply _ _ h d

end Cert.KernelIdeal.Blocks

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.RowValue.lean ====
/-
  One output row of the kernel body, entry by entry, on the extended reals.

  At a grid point the body holds one row of each of the four embedding tables (blocks of shape [1, 1, K],
  K = 1024, 256, 64, 16) and the four weight matrices laid [K, 1024], and a cluster number c. It forms the four
  row-by-matrix products and keeps, entry by entry, the one c names: c = 0 ? y0 : c = 1 ? y1 : c = 2 ? y2 : y3.
  A change of float format is the identity on the extended reals, a product accumulated into zero is the plain
  sum of products over the contracted coordinate, and the unit axes added and dropped around the products move
  no entry. So entry d of the stored row is
      choose-by-number c (∑ h, e0[h] · w0[h, d]) (∑ h, e1[h] · w1[h, d]) (∑ h, e2[h] · w2[h, d]) (∑ h, e3[h] · w3[h, d]).
-/
import proofs.«412027_j120259084974_2_alg».proof.Proof.Gen.KernelIdeal.Skeleton
import proofs.«412027_j120259084974_2_alg».proof.Proof.ClusterWords
import proofs.«412027_j120259084974_2_alg».proof.Proof.LibDot2
import Idealize.ShloMosaic.Lib.ValueIdx
import Idealize.ShloMosaic.Lib.ValueLayout
import Idealize.ShloMosaic.Lib.Pipeline.Value

noncomputable section

open scoped BigOperators

namespace Cert.KernelIdeal.RowValue

open Cert.KernelIdeal Cert.KernelIdeal.Gen
open Idealize.ShloMosaic Idealize.ShloMosaic.ValueIdx Idealize.ShloMosaic.Dot2 Cert.ClusterWords

/-- Row by matrix: entry `d` of a [1, 1, K] row times a [K, 1024] matrix. -/
def rowDot {K : Nat} (e : (⟨3, ![1, 1, K]⟩ : Shape).Idx → EReal) (w : (⟨2, ![K, 1024]⟩ : Shape).Idx → EReal) (d : Fin 1024) : EReal :=
  ∑ h : Fin K, e (ix3 (0 : Fin 1) (0 : Fin 1) h) * w (ix2 h d)

/-- The head cluster's product, entry `d`. -/
theorem prod0_apply (x0 : Vec Ideal S1x1x1024 .f32) (x4 : Vec Ideal S1024x1024 .bf16) (d : Fin 1024) :
    k0_pay3 (F := Ideal) x0 x4 (ix2 (0 : Fin 1) d) = rowDot x0 x4 d := by
  unfold k0_pay3 rowDot
  simp only [matmul]
  refine (matmul_zero_mm_apply (M := 1) (K := 1024) (N := 1024) dot_S1x1024_S1024x1024_S1x1024_1_0_0_1_n_n.wf none _ _ (0 : Fin 1) d).trans ?_
  refine Finset.sum_congr rfl fun h _ => ?_
  rw [truncf_apply, shapeCast_1ab_ab_apply, shapeCast_self]

/-- The first tail cluster's product, entry `d`. -/
theorem prod1_apply (x1 : Vec Ideal S1x1x256 .f32) (x5 : Vec Ideal S256x1024 .bf16) (d : Fin 1024) :
    k0_pay4 (F := Ideal) x1 x5 (ix2 (0 : Fin 1) d) = rowDot x1 x5 d := by
  unfold k0_pay4 rowDot
  simp only [matmul]
  refine (matmul_zero_mm_apply (M := 1) (K := 256) (N := 1024) dot_S1x256_S256x1024_S1x1024_1_0_0_1_n_n.wf none _ _ (0 : Fin 1) d).trans ?_
  refine Finset.sum_congr rfl fun h _ => ?_
  rw [truncf_apply, shapeCast_1ab_ab_apply, shapeCast_self]

/-- The second tail cluster's product, entry `d`. -/
theorem prod2_apply (x2 : Vec Ideal S1x1x64 .f32) (x6 : Vec Ideal S64x1024 .bf16) (d : Fin 1024) :
    k0_pay5 (F := Ideal) x2 x6 (ix2 (0 : Fin 1) d) = rowDot x2 x6 d := by
  unfold k0_pay5 rowDot
  simp only [matmul]
  refine (matmul_zero_mm_apply (M := 1) (K := 64) (N := 1024) dot_S1x64_S64x1024_S1x1024_1_0_0_1_n_n.wf none _ _ (0 : Fin 1) d).trans ?_
  refine Finset.sum_congr rfl fun h _ => ?_
  rw [truncf_apply, shapeCast_1ab_ab_apply, shapeCast_self]

/-- The third tail cluster's product, entry `d`. -/
theorem prod3_apply (x3 : Vec Ideal S1x1x16 .f32) (x7 : Vec Ideal S16x1024 .bf16) (d : Fin 1024) :
    k0_pay6 (F := Ideal) x3 x7 (ix2 (0 : Fin 1) d) = rowDot x3 x7 d := by
  unfold k0_pay6 rowDot
  simp only [matmul]
  refine (matmul_zero_mm_apply (M := 1) (K := 16) (N := 1024) dot_S1x16_S16x1024_S1x1024_1_0_0_1_n_n.wf none _ _ (0 : Fin 1) d).trans ?_
  refine Finset.sum_congr rfl fun h _ => ?_
  rw [truncf_apply, shapeCast_1ab_ab_apply, shapeCast_self]

/-- THE STORED ROW at entry `d`: the product the cluster number names. -/
theorem row_apply (c : BitVec 32) (x0 : Vec Ideal S1x1x1024 .f32) (x1 : Vec Ideal S1x1x256 .f32) (x2 : Vec Ideal S1x1x64 .f32)
    (x3 : Vec Ideal S1x1x16 .f32) (x4 : Vec Ideal S1024x1024 .bf16) (x5 : Vec Ideal S256x1024 .bf16)
    (x6 : Vec Ideal S64x1024 .bf16) (x7 : Vec Ideal S16x1024 .bf16) (u v : Fin 1) (d : Fin 1024) :
    k0_pay1 (F := Ideal) (k0_pay2 (F := Ideal) c) (k0_pay3 x0 x4) (k0_pay4 x1 x5) (k0_pay5 x2 x6) (k0_pay6 x3 x7)
        (k0_pay7 (F := Ideal) c) (k0_pay8 (F := Ideal) c) k0_pay9 (ix3 u v d)
      = byNumber c (rowDot x0 x4 d) (rowDot x1 x5 d) (rowDot x2 x6 d) (rowDot x3 x7 d) := by
  obtain rfl : v = 0 := Subsingleton.elim _ _
  unfold k0_pay1
  rw [shapeCast_ab_1ab_apply]
  rw [select_apply, select_apply, select_apply, prod0_apply, prod1_apply, prod2_apply, prod3_apply]
  rfl

end Cert.KernelIdeal.RowValue

end
-- ==== Proof.KernelValue.lean ====
/-
  What the kernel leaves in its result array, read off its frame run.

  At grid point t the body is handed one row of each embedding table (the rows the prefetched tables name for
  token t), the four transposed projections, and the token's cluster number; it stores one row of 1024 entries,
  entry d being the row-by-matrix product of the cluster the number names. Put through the tables' contents and
  the arrays' layouts, that entry is the specification's cell (t, d) picked by the cluster number. The output
  window writes row t of the [32768, 1, 1024] array at point t, the rows tile the array, and the line after the
  region drops the unit axis: the result array is the specification's.
-/
import proofs.«412027_j120259084974_2_alg».proof.Proof.KernelIdealFrame
import proofs.«412027_j120259084974_2_alg».proof.Proof.KernelIdealTables
import proofs.«412027_j120259084974_2_alg».proof.Proof.KernelToken
import proofs.«412027_j120259084974_2_alg».proof.Proof.KernelArray
import proofs.«412027_j120259084974_2_alg».proof.Proof.KernelBlocks
import proofs.«412027_j120259084974_2_alg».proof.Proof.RowValue
import proofs.«412027_j120259084974_2_alg».proof.Proof.Lookup
import Idealize.ShloMosaic.Lib.Pipeline.Value

set_option maxRecDepth 16384

noncomputable section

namespace Cert.KernelIdeal.KValue

open Cert.KernelIdeal Cert.KernelIdeal.Gen Cert.KernelIdeal.Tables Cert.KernelIdeal.Token Cert.KernelIdeal.RowValue Cert.KernelIdeal.Blocks
open Cert.ClusterWords Cert.Lookup
open Idealize.ShloMosaic Idealize.ShloMosaic.TcCoe Idealize.ShloMosaic.Tactic Idealize.ShloMosaic.ValueIdx Idealize.SL.Sem
open Idealize.ShloMosaic.Pipeline (Dat)

theorem zeros2 : (![0, 0] : Fin 2 → Nat) = fun _ => 0 := by funext a; fin_cases a <;> rfl
theorem zeros3 : (![0, 0, 0] : Fin 3 → Nat) = fun _ => 0 := by funext a; fin_cases a <;> rfl

/-- The one index of a unit rectangle at offset `n` of a [32768] table is position `n`. -/
theorem unit_idx (n : Fin 32768) (off : Fin 1 → Nat) (hoff : off 0 = n.val) (inb : ∀ a, off a + S1.size a ≤ S32768.size a)
    (h1 : 0 < S1.numel) : (Rect.unit (s := S32768) off S1.size inb).idx (Shape.Idx.first h1) = ix1 n := by
  funext a
  apply Fin.ext
  fin_cases a
  show off 0 + 1 * (Shape.Idx.first h1 (0 : Fin 1)).val = n.val
  have h0 : (Shape.Idx.first h1 (0 : Fin 1)).val = 0 := by
    have := (Shape.Idx.first h1 (0 : Fin 1)).isLt
    have e : S1.size (0 : Fin 1) = 1 := by decide
    omega
  rw [h0, hoff]; omega

/-! ## One point's output block -/

/-- Entry `d` of the block the body leaves at a point of token `n`: the row product the cluster word at `n` names. -/
theorem out_apply (c : Dev nD) (i : grid0.Coords) (arg6 : Memref sig .tc .vmem S1x1x1024 .f32) (harg6 : arg6.IsWhole) (arg7 : Memref sig .tc .vmem S1x1x256 .f32) (harg7 : arg7.IsWhole) (arg8 : Memref sig .tc .vmem S1x1x64 .f32) (harg8 : arg8.IsWhole) (arg9 : Memref sig .tc .vmem S1x1x16 .f32) (harg9 : arg9.IsWhole) (arg10 : Memref sig .tc .vmem S1024x1024 .bf16) (harg10 : arg10.IsWhole) (arg11 : Memref sig .tc .vmem S256x1024 .bf16) (harg11 : arg11.IsWhole) (arg12 : Memref sig .tc .vmem S64x1024 .bf16) (harg12 : arg12.IsWhole) (arg13 : Memref sig .tc .vmem S16x1024 .bf16) (harg13 : arg13.IsWhole) (arg14 : Memref sig .tc .vmem S1x1x1024 .f32) (harg14 : arg14.IsWhole)
    (x0 : Vec Ideal S1x1x1024 .f32) (x1 : Vec Ideal S1x1x256 .f32) (x2 : Vec Ideal S1x1x64 .f32) (x3 : Vec Ideal S1x1x16 .f32) (x4 : Vec Ideal S1024x1024 .bf16) (x5 : Vec Ideal S256x1024 .bf16) (x6 : Vec Ideal S64x1024 .bf16) (x7 : Vec Ideal S16x1024 .bf16) (xt0 : TbBuf0 (F := Ideal) c tbM0_0) (xt1 : TbBuf0 (F := Ideal) c tbM0_1) (xt2 : TbBuf0 (F := Ideal) c tbM0_2) (xt3 : TbBuf0 (F := Ideal) c tbM0_3) (xt4 : TbBuf0 (F := Ideal) c tbM0_4)
    (n : Fin 32768) (hn : (i 0).val = n.val) (u v : Fin 1) (d : Fin 1024) :
    out0_A_8 (F := Ideal) c i arg6 harg6 arg7 harg7 arg8 harg8 arg9 harg9 arg10 harg10 arg11 harg11 arg12 harg12 arg13 harg13 arg14 harg14 x0 x1 x2 x3 x4 x5 x6 x7 xt0 xt1 xt2 xt3 xt4 (ix3 u v d)
      = byNumber (xt4 (ix1 n)) (rowDot x0 x4 d) (rowDot x1 x5 d) (rowDot x2 x6 d) (rowDot x3 x7 d) := by
  unfold out0_A_8
  rw [View.read_writes_eq_canon _ _ _ (cover0_A_8 c i arg6 harg6 arg7 harg7 arg8 harg8 arg9 harg9 arg10 harg10 arg11 harg11 arg12 harg12 arg13 harg13 arg14 harg14 x0 x1 x2 x3 x4 x5 x6 x7 xt0 xt1 xt2 xt3 xt4)]
  unfold kernelRun0_A
  dsimp only
  sl_unfold_words
  rw [View.canon_unit_zero zeros3]
  simp only [View.readAt_eq_ld, harg6.read_unread, harg7.read_unread, harg8.read_unread, harg9.read_unread, harg10.read_unread,
    harg11.read_unread, harg12.read_unread, harg13.read_unread, View.ld_unit_zero (S := S1x1x1024) zeros3,
    View.ld_unit_zero (S := S1x1x256) zeros3, View.ld_unit_zero (S := S1x1x64) zeros3, View.ld_unit_zero (S := S1x1x16) zeros3,
    View.ld_unit_zero (S := S1024x1024) zeros2, View.ld_unit_zero (S := S256x1024) zeros2, View.ld_unit_zero (S := S64x1024) zeros2,
    View.ld_unit_zero (S := S16x1024) zeros2]
  generalize hW : View.ld (View.read (Elt Ideal) (View.whole main_v36) xt4) _ _ = w
  rw [row_apply]
  have hw : w = xt4 (ix1 n) := by
    rw [← hW]
    refine congrArg xt4 (unit_idx n _ ?_ _ _)
    show (BitVec.ofNat 32 (i 0).val).toNat = n.val
    have hlt : (i 0).val < 32768 := (i 0).isLt
    rw [BitVec.toNat_ofNat, ← hn]
    exact Nat.mod_eq_of_lt (by omega)
  rw [hw]

/-! ## What each point leaves: the specification's cell -/

theorem byNumber_congr {α : Type} {c c' : BitVec 32} {a a' b b' e e' f f' : α} (hc : c = c') (ha : a = a') (hb : b = b')
    (he : e = e') (hf : f = f') : byNumber c a b e f = byNumber c' a' b' e' f' := by
  subst hc ha hb he hf; rfl

section Points

variable (m : (ℓ : Loc nD τ sig) → Buf (Elt Ideal) ℓ) (hO : Ok m) (c : Dev nD)

/-- The specification's result array at the arguments the program is launched with (core `c`). -/
def spec : (⟨2, ![32768, 1024]⟩ : Shape).Idx → EReal :=
  Cert.Lookup.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Entry `d` of the block left at point `t` is the specification's cell `(t, d)`. -/
theorem outs_eq (t : Fin (cfgM m hO).N) (u v : Fin 1) (d : Fin 1024) :
    outsAt0 m hO c t (ix3 u v d) = spec m c (ix2 (tok m hO t) d) := by
  obtain rfl : c = 0 := Subsingleton.elim _ _
  unfold outsAt0
  refine (out_apply _ _ _ _ _ _ _ _ _ _ _ _ _ _ _ _ _ _ _ _ _ _ _ _ _ _ _ _ _ _ _ _ _ (tok m hO t) ((coords_val m hO t).trans (tok_val m hO t).symm) u v d).trans ?_
  show _ = cellByNumber _ _ _ _ _ _ _ _ _ (tok m hO t) d
  unfold cellByNumber
  refine byNumber_congr ?_ ?_ ?_ ?_ ?_
  · rw [tbl4_eq]
  · unfold rowDot y0 proj
    exact Finset.sum_congr rfl fun h _ => by rw [emb0_block m hO 0 t h, w0_block m hO 0 t h d]
  · unfold rowDot y1 proj
    exact Finset.sum_congr rfl fun h _ => by rw [emb1_block m hO 0 t h, w1_block m hO 0 t h d]
  · unfold rowDot y2 proj
    exact Finset.sum_congr rfl fun h _ => by rw [emb2_block m hO 0 t h, w2_block m hO 0 t h d]
  · unfold rowDot y3 proj
    exact Finset.sum_congr rfl fun h _ => by rw [emb3_block m hO 0 t h, w3_block m hO 0 t h d]

end Points

/-! ## The kernel's run with its result named -/

/-- From any memory: every weakly fair execution of the program ends with the result array at the specification's
    function of the arguments, and the arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have hO : Ok m := ok m
  refine (θ_run defs _ _).mono (fun _ h c => ?_) (run_main m ρ hO)
  exact ⟨((h c).2 main_v50 (by decide : main_v50 ∈ Pipeline.restRefs sig spec0)).trans
      (Cert.KernelIdeal.Arr.result_of m hO c (spec m c) (outs_eq m hO c)),
    ((h c).2 main_arg0 (by decide : main_arg0 ∈ Pipeline.restRefs sig spec0)).trans (W_main_arg0 m hO (dats m hO) c),
    ((h c).2 main_arg1 (by decide : main_arg1 ∈ Pipeline.restRefs sig spec0)).trans (W_main_arg1 m hO (dats m hO) c),
    ((h c).2 main_arg2 (by decide : main_arg2 ∈ Pipeline.restRefs sig spec0)).trans (W_main_arg2 m hO (dats m hO) c),
    ((h c).2 main_arg3 (by decide : main_arg3 ∈ Pipeline.restRefs sig spec0)).trans (W_main_arg3 m hO (dats m hO) c),
    ((h c).2 main_arg4 (by decide : main_arg4 ∈ Pipeline.restRefs sig spec0)).trans (W_main_arg4 m hO (dats m hO) c),
    ((h c).2 main_arg5 (by decide : main_arg5 ∈ Pipeline.restRefs sig spec0)).trans (W_main_arg5 m hO (dats m hO) c),
    ((h c).2 main_arg6 (by decide : main_arg6 ∈ Pipeline.restRefs sig spec0)).trans (W_main_arg6 m hO (dats m hO) c),
    ((h c).2 main_arg7 (by decide : main_arg7 ∈ Pipeline.restRefs sig spec0)).trans (W_main_arg7 m hO (dats m hO) c),
    ((h c).2 main_arg8 (by decide : main_arg8 ∈ Pipeline.restRefs sig spec0)).trans (W_main_arg8 m hO (dats m hO) c)⟩

end Cert.KernelIdeal.KValue

end
-- ==== Proof.RefValue.lean ====
/-
  The reference program read at one cell (n, d) of its result, on the extended reals.

  The reference starts from an array of zeros and, for each of the four clusters in order, overwrites the rows
  whose id lies in the cluster: with lo ≤ x < hi the cluster's range and x the id of token n,
      local = clamp(x - lo, 0, hi - lo - 1),   e = table[local],   y = e · wᵀ,   out = (lo ≤ x < hi) ? y : out.
  Read at (n, d), every stage is a function of the one id x = ids[n]:
    * the clamp is the word `rowW lo top x` (the maximum with 0 first, then the minimum with top = hi - lo - 1);
    * array indexing first wraps a negative index around (index < 0 ? index + rows : index); a clamped word is never
      negative, so the wrap leaves it as it is;
    * the gather reads, at (n, h), the table at (start row, h), the start row being the index word at (n, 0) read
      signed, as a natural number, and kept below the table's row count: for a clamped word that is the word's own
      value, which is the row `Lookup` names;
    * the product contracts the last axis of both operands: at (n, d) it is ∑ h, e[n, h] · w[d, h], the proposal
      y_k[n, d] of `Lookup`;
    * the mask, laid along the rows, reads at (n, d) the membership bit `inW lo hi x`.
  The four overwrites, innermost first, are then the chain `byOverwrite x 0 y0 y1 y2 y3`. Nothing is assumed of the
  ids: the clamp and the masks are total functions of the word.
-/
import proofs.«412027_j120259084974_2_alg».proof.Proof.Gen.ReferenceIdeal.Read
import proofs.«412027_j120259084974_2_alg».proof.Proof.Lookup
import Idealize.ShloMosaic.Lib.ValueIdx
import Idealize.ShloMosaic.Lib.StableHlo.Predicate

noncomputable section

open scoped BigOperators

namespace Cert.ReferenceIdeal.RefValue

open Idealize.ShloMosaic Idealize.ShloMosaic.ValueIdx Cert.ReferenceIdeal Cert.ReferenceIdeal.Gen Cert.ReferenceIdeal.Read
  Cert.ClusterWords

/-! ## A select whose bit is not set -/

/-- A select on a bit that is not `1` is its second operand. -/
theorem select_off {α : Type} (c : BitVec 1) (a b : α) (h : ¬ c = 1) : Scalar.select c a b = b := if_neg h

/-! ## The row gather at an index

A table of `R` rows of width `K` is gathered by an [N, 1] column of start words into an [N, K] array: operand axis 0
is collapsed and is the one the start index names, operand axis 1 is the result's offset axis 1, the start word of
result row `n` sits at (n, 0), and a slice is one whole row. -/

/-- Those dimension numbers, for any three extents. -/
abbrev rowDims (R N K : Nat)
    (wf : GatherDims.WF ⟨2, ![R, K]⟩ ⟨2, ![N, 1]⟩ ⟨2, ![N, K]⟩ [1] [0] [] [0] [] 1 ![1, K]) :
    GatherDims ⟨2, ![R, K]⟩ ⟨2, ![N, 1]⟩ ⟨2, ![N, K]⟩ where
  offsetDims := [1]
  collapsedSliceDims := [0]
  operandBatchingDims := []
  startIndicesBatchingDims := []
  startIndexMap := [0]
  indexVectorDim := 1
  sliceSizes := ![1, K]
  wf := wf

/-- The gather at (n, h) is the table at (r, h), for `r` the row whose number is the start word at (n, 0) read signed,
    as a natural number, and kept at most R - 1. On axis 0 the operand coordinate is the clamped start alone (no
    batching axis, and a collapsed axis has no offset); on axis 1 it is the offset coordinate alone (the start index
    does not name that axis). -/
theorem gather_row_apply {α : Type} {R N K w : Nat}
    (wf : GatherDims.WF ⟨2, ![R, K]⟩ ⟨2, ![N, 1]⟩ ⟨2, ![N, K]⟩ [1] [0] [] [0] [] 1 ![1, K])
    (x : (⟨2, ![R, K]⟩ : Shape).Idx → α) (idx : IVec ⟨2, ![N, 1]⟩ w) (n : Fin N) (h : Fin K)
    (r : Fin R) (hr : r.val = min (idx (ix2 n (0 : Fin 1))).toInt.toNat (R - 1)) :
    Host.gather (rowDims R N K wf) x idx (ix2 n h) = x (ix2 r h) := by
  unfold Host.gather
  congr 1
  funext a
  refine Fin.ext ?_
  match a with
  | ⟨0, _⟩ =>
    show (rowDims R N K wf).start (ix2 n h) idx 0 + (rowDims R N K wf).batchCoord (ix2 n h) 0
        + (rowDims R N K wf).offCoord (ix2 n h) 0 = r.val
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (rowDims R N K wf).startIndexMap from List.mem_singleton.mpr rfl)]
    have hsi : (rowDims R N K wf).siIdx (ix2 n h) ⟨List.idxOf (0 : Fin 2) (rowDims R N K wf).startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi, hr]
    rfl
  | ⟨1, _⟩ =>
    show (rowDims R N K wf).start (ix2 n h) idx 1 + (rowDims R N K wf).batchCoord (ix2 n h) 1
        + (rowDims R N K wf).offCoord (ix2 n h) 1 = h.val
    rw [GatherDims.batchCoord_eq_zero _ _ _ List.not_mem_nil]
    unfold GatherDims.start
    rw [dif_neg (show ¬ (1 : Fin 2) ∈ (rowDims R N K wf).startIndexMap from
      (by decide : ¬ (1 : Fin 2) ∈ ([0] : List (Fin 2))))]
    simp only [Nat.add_zero, Nat.zero_add]
    unfold GatherDims.offCoord
    rw [dif_pos (show (1 : Fin 2) ∈ (rowDims R N K wf).sKept from (GatherDims.mem_sKept _ _).mpr
      ⟨(by decide : ¬ (1 : Fin 2) ∈ ([0] : List (Fin 2))), List.not_mem_nil⟩)]
    rfl

section
variable (x0 : (⟨S32768, .i32⟩ : BufTy).Contents (Elt Ideal))

/-! ## Cluster 0: ids 0 ≤ x < 10000, table of 10000 rows of width 1024 -/

/-- The clamp at token n. -/
theorem clamp0 (n : Fin 32768) : val_main_v8 (F := Ideal) x0 (ix1 n) = rowW 0#32 9999#32 (x0 (ix1 n)) := rfl

/-- The start word at (n, 0): the clamp, which the wrap of negative indices leaves alone. -/
theorem word0 (n : Fin 32768) :
    val_main_v14 (F := Ideal) x0 (ix2 n (0 : Fin 1)) = rowW 0#32 9999#32 (x0 (ix1 n)) := by
  rw [val_main_v14_apply,
    show idx_main_v14 (ix2 n (0 : Fin 1)) = ix1 n from funext fun a => by match a with | ⟨0, _⟩ => rfl,
    val_main_v13_apply, val_main_v10_apply, clamp0]
  exact select_off _ _ _ (rowW_not_neg _ _ _ (by decide))

/-- The gathered row at (n, h): the table's row for the clamp. -/
theorem gathered0 (x1 : (⟨S10000x1024, .f32⟩ : BufTy).Contents (Elt Ideal)) (n : Fin 32768) (h : Fin 1024) :
    val_main_v15 (F := Ideal) x0 x1 (ix2 n h)
      = x1 (ix2 (Cert.Lookup.head_row (rowW 0#32 9999#32 (x0 (ix1 n)))) h) := by
  refine gather_row_apply gather_S10000x1024_S32768x1_S32768x1024_1_0_n_n_0_1_11024_wf x1
    (val_main_v14 (F := Ideal) x0) n h _ ?_
  rw [word0, rowW_toInt_toNat _ _ _ (by decide)]
  rfl

/-- The product at (n, d) is cluster 0's proposal. -/
theorem prod0 (x1 : (⟨S10000x1024, .f32⟩ : BufTy).Contents (Elt Ideal))
    (x2 : (⟨S1024x1024, .f32⟩ : BufTy).Contents (Elt Ideal)) (n : Fin 32768) (d : Fin 1024) :
    val_main_v16 (F := Ideal) x0 x1 x2 (ix2 n d) = Cert.Lookup.y0 x0 x1 x2 n d := by
  rw [val_main_v16_apply]
  unfold Cert.Lookup.y0 Cert.Lookup.proj
  refine Finset.sum_congr rfl fun k _ => ?_
  rw [show lidx_main_v16 (ix2 n d) k = ix2 n k from
      funext fun a => by match a with | ⟨0, _⟩ => rfl | ⟨1, _⟩ => rfl,
    show ridx_main_v16 (ix2 n d) k = ix2 d k from
      funext fun a => by match a with | ⟨0, _⟩ => rfl | ⟨1, _⟩ => rfl,
    gathered0]

/-- The mask at (n, d) is the membership bit of the id. -/
theorem mask0 (n : Fin 32768) (d : Fin 1024) :
    val_main_call1_v0 (F := Ideal) x0 (ix2 n d) = inW 0#32 10000#32 (x0 (ix1 n)) := by
  rw [val_main_call1_v0_apply, val_main_v17_apply,
    show idx_main_v17 (idx_main_call1_v0 (ix2 n d)) = ix1 n from
      funext fun a => by match a with | ⟨0, _⟩ => rfl]
  rfl

/-! ## Cluster 1: ids 10000 ≤ x < 60000, table of 50000 rows of width 256 -/

theorem clamp1 (n : Fin 32768) : val_main_v26 (F := Ideal) x0 (ix1 n) = rowW 10000#32 49999#32 (x0 (ix1 n)) := rfl

theorem word1 (n : Fin 32768) :
    val_main_v32 (F := Ideal) x0 (ix2 n (0 : Fin 1)) = rowW 10000#32 49999#32 (x0 (ix1 n)) := by
  rw [val_main_v32_apply,
    show idx_main_v32 (ix2 n (0 : Fin 1)) = ix1 n from funext fun a => by match a with | ⟨0, _⟩ => rfl,
    val_main_v31_apply, val_main_v28_apply, clamp1]
  exact select_off _ _ _ (rowW_not_neg _ _ _ (by decide))

theorem gathered1 (x3 : (⟨S50000x256, .f32⟩ : BufTy).Contents (Elt Ideal)) (n : Fin 32768) (h : Fin 256) :
    val_main_v33 (F := Ideal) x0 x3 (ix2 n h)
      = x3 (ix2 (Cert.Lookup.tail0_row (rowW 10000#32 49999#32 (x0 (ix1 n)))) h) := by
  refine gather_row_apply gather_S50000x256_S32768x1_S32768x256_1_0_n_n_0_1_1256_wf x3
    (val_main_v32 (F := Ideal) x0) n h _ ?_
  rw [word1, rowW_toInt_toNat _ _ _ (by decide)]
  rfl

theorem prod1 (x3 : (⟨S50000x256, .f32⟩ : BufTy).Contents (Elt Ideal))
    (x4 : (⟨S1024x256, .f32⟩ : BufTy).Contents (Elt Ideal)) (n : Fin 32768) (d : Fin 1024) :
    val_main_v34 (F := Ideal) x0 x3 x4 (ix2 n d) = Cert.Lookup.y1 x0 x3 x4 n d := by
  rw [val_main_v34_apply]
  unfold Cert.Lookup.y1 Cert.Lookup.proj
  refine Finset.sum_congr rfl fun k _ => ?_
  rw [show lidx_main_v34 (ix2 n d) k = ix2 n k from
      funext fun a => by match a with | ⟨0, _⟩ => rfl | ⟨1, _⟩ => rfl,
    show ridx_main_v34 (ix2 n d) k = ix2 d k from
      funext fun a => by match a with | ⟨0, _⟩ => rfl | ⟨1, _⟩ => rfl,
    gathered1]

theorem mask1 (n : Fin 32768) (d : Fin 1024) :
    val_main_call3_v0 (F := Ideal) x0 (ix2 n d) = inW 10000#32 60000#32 (x0 (ix1 n)) := by
  rw [val_main_call3_v0_apply, val_main_v35_apply,
    show idx_main_v35 (idx_main_call3_v0 (ix2 n d)) = ix1 n from
      funext fun a => by match a with | ⟨0, _⟩ => rfl]
  rfl

/-! ## Cluster 2: ids 60000 ≤ x < 190000, table of 130000 rows of width 64 -/

theorem clamp2 (n : Fin 32768) : val_main_v44 (F := Ideal) x0 (ix1 n) = rowW 60000#32 129999#32 (x0 (ix1 n)) := rfl

theorem word2 (n : Fin 32768) :
    val_main_v50 (F := Ideal) x0 (ix2 n (0 : Fin 1)) = rowW 60000#32 129999#32 (x0 (ix1 n)) := by
  rw [val_main_v50_apply,
    show idx_main_v50 (ix2 n (0 : Fin 1)) = ix1 n from funext fun a => by match a with | ⟨0, _⟩ => rfl,
    val_main_v49_apply, val_main_v46_apply, clamp2]
  exact select_off _ _ _ (rowW_not_neg _ _ _ (by decide))

theorem gathered2 (x5 : (⟨S130000x64, .f32⟩ : BufTy).Contents (Elt Ideal)) (n : Fin 32768) (h : Fin 64) :
    val_main_v51 (F := Ideal) x0 x5 (ix2 n h)
      = x5 (ix2 (Cert.Lookup.tail1_row (rowW 60000#32 129999#32 (x0 (ix1 n)))) h) := by
  refine gather_row_apply gather_S130000x64_S32768x1_S32768x64_1_0_n_n_0_1_164_wf x5
    (val_main_v50 (F := Ideal) x0) n h _ ?_
  rw [word2, rowW_toInt_toNat _ _ _ (by decide)]
  rfl

theorem prod2 (x5 : (⟨S130000x64, .f32⟩ : BufTy).Contents (Elt Ideal))
    (x6 : (⟨S1024x64, .f32⟩ : BufTy).Contents (Elt Ideal)) (n : Fin 32768) (d : Fin 1024) :
    val_main_v52 (F := Ideal) x0 x5 x6 (ix2 n d) = Cert.Lookup.y2 x0 x5 x6 n d := by
  rw [val_main_v52_apply]
  unfold Cert.Lookup.y2 Cert.Lookup.proj
  refine Finset.sum_congr rfl fun k _ => ?_
  rw [show lidx_main_v52 (ix2 n d) k = ix2 n k from
      funext fun a => by match a with | ⟨0, _⟩ => rfl | ⟨1, _⟩ => rfl,
    show ridx_main_v52 (ix2 n d) k = ix2 d k from
      funext fun a => by match a with | ⟨0, _⟩ => rfl | ⟨1, _⟩ => rfl,
    gathered2]

theorem mask2 (n : Fin 32768) (d : Fin 1024) :
    val_main_call5_v0 (F := Ideal) x0 (ix2 n d) = inW 60000#32 190000#32 (x0 (ix1 n)) := by
  rw [val_main_call5_v0_apply, val_main_v53_apply,
    show idx_main_v53 (idx_main_call5_v0 (ix2 n d)) = ix1 n from
      funext fun a => by match a with | ⟨0, _⟩ => rfl]
  rfl

/-! ## Cluster 3: ids 190000 ≤ x < 250000, table of 60000 rows of width 16 -/

theorem clamp3 (n : Fin 32768) : val_main_v62 (F := Ideal) x0 (ix1 n) = rowW 190000#32 59999#32 (x0 (ix1 n)) := rfl

theorem word3 (n : Fin 32768) :
    val_main_v68 (F := Ideal) x0 (ix2 n (0 : Fin 1)) = rowW 190000#32 59999#32 (x0 (ix1 n)) := by
  rw [val_main_v68_apply,
    show idx_main_v68 (ix2 n (0 : Fin 1)) = ix1 n from funext fun a => by match a with | ⟨0, _⟩ => rfl,
    val_main_v67_apply, val_main_v64_apply, clamp3]
  exact select_off _ _ _ (rowW_not_neg _ _ _ (by decide))

theorem gathered3 (x7 : (⟨S60000x16, .f32⟩ : BufTy).Contents (Elt Ideal)) (n : Fin 32768) (h : Fin 16) :
    val_main_v69 (F := Ideal) x0 x7 (ix2 n h)
      = x7 (ix2 (Cert.Lookup.tail2_row (rowW 190000#32 59999#32 (x0 (ix1 n)))) h) := by
  refine gather_row_apply gather_S60000x16_S32768x1_S32768x16_1_0_n_n_0_1_116_wf x7
    (val_main_v68 (F := Ideal) x0) n h _ ?_
  rw [word3, rowW_toInt_toNat _ _ _ (by decide)]
  rfl

theorem prod3 (x7 : (⟨S60000x16, .f32⟩ : BufTy).Contents (Elt Ideal))
    (x8 : (⟨S1024x16, .f32⟩ : BufTy).Contents (Elt Ideal)) (n : Fin 32768) (d : Fin 1024) :
    val_main_v70 (F := Ideal) x0 x7 x8 (ix2 n d) = Cert.Lookup.y3 x0 x7 x8 n d := by
  rw [val_main_v70_apply]
  unfold Cert.Lookup.y3 Cert.Lookup.proj
  refine Finset.sum_congr rfl fun k _ => ?_
  rw [show lidx_main_v70 (ix2 n d) k = ix2 n k from
      funext fun a => by match a with | ⟨0, _⟩ => rfl | ⟨1, _⟩ => rfl,
    show ridx_main_v70 (ix2 n d) k = ix2 d k from
      funext fun a => by match a with | ⟨0, _⟩ => rfl | ⟨1, _⟩ => rfl,
    gathered3]

theorem mask3 (n : Fin 32768) (d : Fin 1024) :
    val_main_call7_v0 (F := Ideal) x0 (ix2 n d) = inW 190000#32 250000#32 (x0 (ix1 n)) := by
  rw [val_main_call7_v0_apply, val_main_v71_apply,
    show idx_main_v71 (idx_main_call7_v0 (ix2 n d)) = ix1 n from
      funext fun a => by match a with | ⟨0, _⟩ => rfl]
  rfl

end

/-! ## The result cell -/

/-- The reference's result at (n, d): the zero default overwritten by the four proposals in cluster order. -/
theorem ref_cell (x0 : (⟨S32768, .i32⟩ : BufTy).Contents (Elt Ideal))
    (x1 : (⟨S10000x1024, .f32⟩ : BufTy).Contents (Elt Ideal)) (x2 : (⟨S1024x1024, .f32⟩ : BufTy).Contents (Elt Ideal))
    (x3 : (⟨S50000x256, .f32⟩ : BufTy).Contents (Elt Ideal)) (x4 : (⟨S1024x256, .f32⟩ : BufTy).Contents (Elt Ideal))
    (x5 : (⟨S130000x64, .f32⟩ : BufTy).Contents (Elt Ideal)) (x6 : (⟨S1024x64, .f32⟩ : BufTy).Contents (Elt Ideal))
    (x7 : (⟨S60000x16, .f32⟩ : BufTy).Contents (Elt Ideal)) (x8 : (⟨S1024x16, .f32⟩ : BufTy).Contents (Elt Ideal))
    (n : Fin 32768) (d : Fin 1024) :
    Cert.ReferenceIdeal.Read.val_main_v72 (F := Ideal) x0 x1 x2 x3 x4 x5 x6 x7 x8 (ValueIdx.ix2 n d)
      = Cert.Lookup.cellByOverwrite x0 x1 x2 x3 x4 x5 x6 x7 x8
          (FloatOps.ofBits (F := Ideal) .f32 0x00000000#32) n d := by
  rw [val_main_v72_apply, val_main_v54_apply, val_main_v36_apply, val_main_v18_apply,
    mask3, mask2, mask1, mask0, prod3, prod2, prod1, prod0]
  rfl

end Cert.ReferenceIdeal.RefValue

end
-- ==== Proof.PreDecode.lean ====
/-
  The precondition decoded: every identifier lies in the vocabulary.

  The printed predicate is a conjunction of nine facts about the nine inputs, folded left to right by
  `and` on one-bit words: eight say that every entry of a float input is finite, and the ninth, the
  outermost right operand, is the reduction by `and` over all 32768 identifiers of
  (0 ≤ id, signed) and (id < 250000, signed). The claim's hypothesis says the predicate is the word 1.
  A conjunction of one-bit words is 1 only if both operands are, so the ninth fact is 1; a reduction by
  `and` from 1 over every axis is 1 only if every reduced entry is, so at each position n the word
  (0 ≤ id n) and (id n < 250000) is 1; and once more both of its operands are 1.

  The eight float facts are never opened: the chain of `let`s is only unfolded as far as its last
  operation, whose left operand stays an unnamed word.
-/
import proofs.«412027_j120259084974_2_alg».proof.Defs
import proofs.«412027_j120259084974_2_alg».proof.Proof.Gen.Pre_finite_inputs
import Idealize.ShloMosaic.Lib.ReduceAll
import Idealize.ShloMosaic.Lib.ValueIdx

noncomputable section

namespace Cert.PreDecode

open Idealize.ShloMosaic Idealize.SL.Sem
open Cert.Pre_finite_inputs Cert.Pre_finite_inputs.Facts

/-- The scalar shape has exactly one index. -/
instance scalarIdx_subsingleton : Subsingleton S_.Idx := ⟨fun a b => funext fun d => d.elim0⟩

/-- The range test as an array of one-bit words: at position n, (0 ≤ id n) and (id n < 250000), both signed. -/
def inRange [Facts] (a0 : IVec S32768 32) : IVec S32768 1 :=
  andi (cmpi .sge a0 (broadcastInDim S32768 ![] bcast_S_S32768 (constantI S_ 32 0#32)))
    (cmpi .slt a0 (broadcastInDim S32768 ![] bcast_S_S32768 (constantI S_ 32 250000#32)))

/-- The range test at a position is the conjunction of the two comparisons of that identifier with the
    two literals: a broadcast scalar reads the same word everywhere. -/
theorem inRange_at [Facts] (a0 : IVec S32768 32) (i : S32768.Idx) :
    inRange a0 i = IntOp.andi (IntOp.cmpi .sge (a0 i) 0#32) (IntOp.cmpi .slt (a0 i) 250000#32) := rfl

/-- The whole predicate is its last part applied to SOME one-bit word standing for the first seven float facts. -/
theorem fn_eq_part2 {F : FTy → Type} [FloatOps F] [Facts]
    (a0 : IVec S32768 32) (a1 : FVec F S10000x1024 .f32) (a2 : FVec F S1024x1024 .f32) (a3 : FVec F S50000x256 .f32)
    (a4 : FVec F S1024x256 .f32) (a5 : FVec F S130000x64 .f32) (a6 : FVec F S1024x64 .f32) (a7 : FVec F S60000x16 .f32)
    (a8 : FVec F S1024x16 .f32) :
    ∃ v : IVec S_ 1, fn (F := F) a0 a1 a2 a3 a4 a5 a6 a7 a8 = fn_part2 (F := F) a0 a8 v := ⟨_, rfl⟩

/-- The last part at its one index is a conjunction whose right operand is the reduction of the range test;
    its left operand is SOME one-bit word (all eight float facts together). -/
theorem part2_at {F : FTy → Type} [FloatOps F] [Facts] (a0 : IVec S32768 32) (a8 : FVec F S1024x16 .f32) (v : IVec S_ 1) :
    ∃ w : BitVec 1, fn_part2 (F := F) a0 a8 v ValueIdx.ix0
      = IntOp.andi w (Host.reduce IntOp.andi (inRange a0) (constantI S_ 1 1#1) reducesTo_S32768_S_d0 h_S_ ValueIdx.ix0) :=
  ⟨_, rfl⟩

/-- Under the precondition every identifier is at least 0 and below 250000, as signed words. -/
theorem ids_in_vocabulary {F : FTy → Type} [FloatOps F] [Cert.Pre_finite_inputs.Facts]
    (a0 : IVec Cert.Pre_finite_inputs.S32768 32) (a1 : FVec F Cert.Pre_finite_inputs.S10000x1024 .f32) (a2 : FVec F Cert.Pre_finite_inputs.S1024x1024 .f32) (a3 : FVec F Cert.Pre_finite_inputs.S50000x256 .f32) (a4 : FVec F Cert.Pre_finite_inputs.S1024x256 .f32) (a5 : FVec F Cert.Pre_finite_inputs.S130000x64 .f32) (a6 : FVec F Cert.Pre_finite_inputs.S1024x64 .f32) (a7 : FVec F Cert.Pre_finite_inputs.S60000x16 .f32) (a8 : FVec F Cert.Pre_finite_inputs.S1024x16 .f32)
    (h : Cert.Pre_finite_inputs.fn (F := F) a0 a1 a2 a3 a4 a5 a6 a7 a8 = fun _ => 1#1) (n : Fin 32768) :
    IntOp.cmpi .sge (a0 (ValueIdx.ix1 n)) 0#32 = 1#1 ∧ IntOp.cmpi .slt (a0 (ValueIdx.ix1 n)) 250000#32 = 1#1 := by
  -- the predicate's one word is 1
  have e : fn (F := F) a0 a1 a2 a3 a4 a5 a6 a7 a8 ValueIdx.ix0 = 1#1 := congrFun h ValueIdx.ix0
  -- forget the float facts: only the last conjunction is kept in view
  obtain ⟨v, hv⟩ := fn_eq_part2 a0 a1 a2 a3 a4 a5 a6 a7 a8
  rw [hv] at e
  obtain ⟨w, hw⟩ := part2_at a0 a8 v
  rw [hw] at e
  -- its right operand, the reduction over all identifiers, is 1; so the range test is 1 at position n
  have hn : inRange a0 (ValueIdx.ix1 n) = 1#1 :=
    Host.reduce_andi_all (inRange a0) (constantI S_ 1 1#1) reducesTo_S32768_S_d0 h_S_ ValueIdx.ix0
      (IntOp.andi_eq_one.1 e).2 (ValueIdx.ix1 n)
  rw [inRange_at] at hn
  exact IntOp.andi_eq_one.1 hn

/-- The same for the identifiers a device of the idealized kernel holds in its memory. -/
theorem of_pre_kernelIdeal [hP : Cert.Pre_finite_inputs.Facts] (m : (ℓ : Loc Cert.KernelIdeal.nD Cert.KernelIdeal.τ Cert.KernelIdeal.sig) → Buf (Elt Ideal) ℓ) (h : Cert.Pre_KernelIdeal m) (c : Dev Cert.KernelIdeal.nD) (n : Fin 32768) :
    IntOp.cmpi .sge (m ((c.tc : Thread Cert.KernelIdeal.nD Cert.KernelIdeal.τ).loc Cert.KernelIdeal.main_arg0) (ValueIdx.ix1 n)) 0#32 = 1#1 ∧ IntOp.cmpi .slt (m ((c.tc : Thread Cert.KernelIdeal.nD Cert.KernelIdeal.τ).loc Cert.KernelIdeal.main_arg0) (ValueIdx.ix1 n)) 250000#32 = 1#1 :=
  ids_in_vocabulary (F := Ideal) _ _ _ _ _ _ _ _ _ (h c) n

end Cert.PreDecode

end
-- ==== Proof.lean ====
/-
  Kernel and reference compute the adaptive embedding: the claims assembled.

  The kernel gathers, per token, one row of each cluster's embedding table at a row computed (and clamped into the
  table) from the token id, multiplies each row by its cluster's transposed projection, and keeps the product of
  the cluster a number computed from the id names. The reference computes, for every cluster, the clamped row
  gather and the projection for all tokens, and overwrites a zero array cluster by cluster under the cluster's
  range mask. On the extended reals a change of float format is the identity and both kinds of matrix product are
  the same plain sums, so for every token both programs choose among the same four proposals; they choose alike
  for every id of the vocabulary, 0 ≤ id < 250000 (outside it no mask holds: the reference leaves zero where the
  kernel leaves the head cluster's proposal — the precondition's last conjunct is that range, and it is used here
  and nowhere else; the finiteness conjuncts are never opened).

  The frames: the gather tables are clamps into their tables whatever the ids are, so the gather's side condition
  holds for every memory, for the program as printed and for its idealization; the reference's frame is its run
  with the result dropped. The idealization rewrote nothing, so it is trivially sanctioned.
-/
import proofs.«412027_j120259084974_2_alg».proof.Defs
import proofs.«412027_j120259084974_2_alg».proof.Proof.Gen.Kernel
import proofs.«412027_j120259084974_2_alg».proof.Proof.Gen.KernelIdeal
import proofs.«412027_j120259084974_2_alg».proof.Proof.Gen.ReferenceIdeal
import proofs.«412027_j120259084974_2_alg».proof.Proof.Gen.ReferenceIdeal.Run
import proofs.«412027_j120259084974_2_alg».proof.Proof.Gen.ReferenceIdeal.Read
import proofs.«412027_j120259084974_2_alg».proof.Proof.Gen.Pre_finite_inputs
import proofs.«412027_j120259084974_2_alg».proof.Proof.KernelFrame
import proofs.«412027_j120259084974_2_alg».proof.Proof.KernelTables
import proofs.«412027_j120259084974_2_alg».proof.Proof.KernelIdealFrame
import proofs.«412027_j120259084974_2_alg».proof.Proof.KernelIdealTables
import proofs.«412027_j120259084974_2_alg».proof.Proof.KernelValue
import proofs.«412027_j120259084974_2_alg».proof.Proof.RefValue
import proofs.«412027_j120259084974_2_alg».proof.Proof.PreDecode
import proofs.«412027_j120259084974_2_alg».proof.Proof.Lookup
import Idealize.ShloMosaic.Adequacy
import Idealize.ShloMosaic.Init

set_option maxRecDepth 16384

noncomputable section

namespace Cert.Proof

open Idealize.ShloMosaic Idealize.ShloMosaic.ValueIdx Idealize.SL.Sem

/-- The program as printed runs and keeps its arguments: its gathers are in range for every memory. -/
theorem frame_k [Cert.Kernel.Facts] [Cert.Pre_finite_inputs.Facts] : Cert.frame_Kernel :=
  fun m ρ _ => Cert.Kernel.Gen.frame m ρ (Cert.Kernel.Tables.ok m)

/-- So does its idealization. -/
theorem frame_ki [Cert.KernelIdeal.Facts] [Cert.Pre_finite_inputs.Facts] : Cert.frame_KernelIdeal :=
  fun m ρ _ => Cert.KernelIdeal.Gen.frame m ρ (Cert.KernelIdeal.Tables.ok m)

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories agreeing on the arguments, with ids of the vocabulary, both programs end with the
    specification's array: the kernel by its frame run read as a value, the reference by its run read operation by
    operation; the reference's overwrite chain picks the cell the kernel's cluster number picks. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.KValue.spec m c, Cert.KernelIdeal.KValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v72_eq]
  obtain ⟨a0, a1, a2, a3, a4, a5, a6, a7, a8⟩ := hagree c
  rw [a0, a1, a2, a3, a4, a5, a6, a7, a8]
  funext j
  obtain ⟨n, d, rfl⟩ : ∃ (n : Fin 32768) (d : Fin 1024), j = ix2 n d := ⟨j 0, j 1, eq_ix2 j⟩
  refine (Cert.ReferenceIdeal.RefValue.ref_cell _ _ _ _ _ _ _ _ _ n d).trans ?_
  exact Cert.Lookup.cellByOverwrite_eq _ _ _ _ _ _ _ _ _ (fun n => Cert.PreDecode.of_pre_kernelIdeal m hpre c n) _ n d

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
